-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_arg1 : IVec S2x1600000 32) (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : IVec S1x1600000 32 := (extractStridedSlice S1x1600000 ![0, 0] · slices_S2x1600000_S1x1600000_0_0) main_arg1
  let main_v75 : IVec S1600000 32 := shapeCast S1600000 main_v74 shapeCasts_S1x1600000_S1600000
  let main_c_28 : IVec S_ 32 := constantI S_ 32 4294867296#32
  let main_v76 : IVec S1600000 32 := broadcastInDim S1600000 ![] bcast_S_S1600000 main_c_28
  let main_v77 : IVec S1600000 1 := cmpi .sge main_v75 main_v76
  let main_c_29 : IVec S_ 1 := constantI S_ 1 1#1
  let main_v78 : IVec S_ 1 := (fun x v => Host.reduce IntOp.andi x v reducesTo_S1600000_S_d0 h_S_) main_v77 main_c_29
  let main_v79 : IVec S_ 1 := andi main_v73 main_v78
  let main_v80 : IVec S1x1600000 32 := (extractStridedSlice S1x1600000 ![0, 0] · slices_S2x1600000_S1x1600000_0_0) main_arg1
  let main_v81 : IVec S1600000 32 := shapeCast S1600000 main_v80 shapeCasts_S1x1600000_S1600000
  let main_c_30 : IVec S_ 32 := constantI S_ 32 100000#32
  let main_v82 : IVec S1600000 32 := broadcastInDim S1600000 ![] bcast_S_S1600000 main_c_30
  let main_v83 : IVec S1600000 1 := cmpi .slt main_v81 main_v82
  let main_c_31 : IVec S_ 1 := constantI S_ 1 1#1
  let main_v84 : IVec S_ 1 := (fun x v => Host.reduce IntOp.andi x v reducesTo_S1600000_S_d0 h_S_) main_v83 main_c_31
  let main_v85 : IVec S_ 1 := andi main_v79 main_v84
  main_v85

def fn_part3 {F : FTy → Type} [FloatOps F] (main_arg1 : IVec S2x1600000 32) (main_arg13 : FVec F S128x128 .f32) (main_arg14 : FVec F S128 .f32) (main_arg15 : FVec F S128x10 .f32) (main_arg16 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x10 .f32 := Host.absf main_arg15
  let main_cst_24 : FVec F S_ .f32 := constant S_ .f32 0x7F800000#32
  let main_v65 : FVec F S128x10 .f32 := broadcastInDim S128x10 ![] bcast_S_S128x10 main_cst_24
  let main_v66 : IVec S128x10 1 := cmpf .olt main_v64 main_v65
  let main_c_25 : IVec S_ 1 := constantI S_ 1 1#1
  let main_v67 : IVec S_ 1 := (fun x v => Host.reduce IntOp.andi x v reducesTo_S128x10_S_d0_1 h_S_) main_v66 main_c_25
  fn_part4 (F := F) main_arg1 main_arg16 main_v63 main_v67

def fn_part2 {F : FTy → Type} [FloatOps F] (main_arg1 : IVec S2x1600000 32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x10 .f32) (main_arg16 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg13 main_arg14 main_arg15 main_arg16 main_v48 main_v49 main_v50

def fn_part1 {F : FTy → Type} [FloatOps F] (main_arg1 : IVec S2x1600000 32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x10 .f32) (main_arg16 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x10 .f32) (main_arg16 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S4000x128 : Shape := ⟨2, ![4000, 128]⟩
abbrev S1x128 : Shape := ⟨2, ![1, 128]⟩
abbrev S512x128 : Shape := ⟨2, ![512, 128]⟩
abbrev S100000x1 : Shape := ⟨2, ![100000, 1]⟩
abbrev S512x10 : Shape := ⟨2, ![512, 10]⟩
abbrev S1x10 : Shape := ⟨2, ![1, 10]⟩

abbrev nBuf : Space → Nat
  | .hbm => 113
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x10, .f32⟩
  | .hbm, ⟨16, _⟩ => ⟨S10, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1, .i32⟩
  | .hbm, ⟨30, _⟩ => ⟨S_, .i32⟩
  | .hbm, ⟨31, _⟩ => ⟨S1600000x1, .i32⟩
  | .hbm, ⟨32, _⟩ => ⟨S1600000x1, .i1⟩
  | .hbm, ⟨33, _⟩ => ⟨S1x1, .i32⟩
  | .hbm, ⟨34, _⟩ => ⟨S1600000x1, .i32⟩
  | .hbm, ⟨35, _⟩ => ⟨S1600000x1, .i1⟩
  | .hbm, ⟨36, _⟩ => ⟨S1600000x1, .i1⟩
  | .hbm, ⟨37, _⟩ => ⟨S_, .i1⟩
  | .hbm, ⟨38, _⟩ => ⟨S1600000, .i1⟩
  | .hbm, ⟨39, _⟩ => ⟨S1600000x128, .f32⟩
  | .hbm, ⟨40, _⟩ => ⟨S1600000x128, .i1⟩
  | .hbm, ⟨41, _⟩ => ⟨S_, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1, .i32⟩
  | .hbm, ⟨58, _⟩ => ⟨S_, .i32⟩
  | .hbm, ⟨59, _⟩ => ⟨S1600000x1, .i32⟩
  | .hbm, ⟨60, _⟩ => ⟨S1600000x1, .i1⟩
  | .hbm, ⟨61, _⟩ => ⟨S1x1, .i32⟩
  | .hbm, ⟨62, _⟩ => ⟨S1600000x1, .i32⟩
  | .hbm, ⟨63, _⟩ => ⟨S1600000x1, .i1⟩
  | .hbm, ⟨64, _⟩ => ⟨S1600000x1, .i1⟩
  | .hbm, ⟨65, _⟩ => ⟨S_, .i1⟩
  | .hbm, ⟨66, _⟩ => ⟨S1600000, .i1⟩
  | .hbm, ⟨67, _⟩ => ⟨S1600000x128, .f32⟩
  | .hbm, ⟨68, _⟩ => ⟨S1600000x128, .i1⟩
  | .hbm, ⟨69, _⟩ => ⟨S_, .f32⟩
  | .hbm, ⟨70, _⟩ => ⟨S1600000x128, .f32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1, .i32⟩
  | .hbm, ⟨86, _⟩ => ⟨S_, .i32⟩
  | .hbm, ⟨87, _⟩ => ⟨S1600000x1, .i32⟩
  | .hbm, ⟨88, _⟩ => ⟨S1600000x1, .i1⟩
  | .hbm, ⟨89, _⟩ => ⟨S1x1, .i32⟩
  | .hbm, ⟨90, _⟩ => ⟨S1600000x1, .i32⟩
  | .hbm, ⟨91, _⟩ => ⟨S1600000x1, .i1⟩
  | .hbm, ⟨92, _⟩ => ⟨S1600000x1, .i1⟩
  | .hbm, ⟨93, _⟩ => ⟨S_, .i1⟩
  | .hbm, ⟨94, _⟩ => ⟨S1600000, .i1⟩
  | .hbm, ⟨95, _⟩ => ⟨S1600000x128, .f32⟩
  | .hbm, ⟨96, _⟩ => ⟨S1600000x128, .i1⟩
  | .hbm, ⟨97, _⟩ => ⟨S_, .f32⟩
  | .hbm, ⟨98, _⟩ => ⟨S1600000x128, .f32⟩
  | .hbm, ⟨99, _⟩ => ⟨S1600000x128, .f32⟩
  | .hbm, ⟨100, _⟩ => ⟨S_, .f32⟩
  | .hbm, ⟨101, _⟩ => ⟨S100000x128, .f32⟩
  | .hbm, ⟨102, _⟩ => ⟨S1600000x1, .i32⟩
  | .hbm, ⟨103, _⟩ => ⟨S100000x128, .f32⟩
  | .hbm, ⟨104, _⟩ => ⟨S100000x128, .f32⟩
  | .hbm, ⟨105, _⟩ => ⟨S_, .f32⟩
  | .hbm, ⟨106, _⟩ => ⟨S512x128, .f32⟩
  | .hbm, ⟨107, _⟩ => ⟨S100000x1, .i32⟩
  | .hbm, ⟨108, _⟩ => ⟨S512x128, .f32⟩
  | .hbm, ⟨109, _⟩ => ⟨S512x10, .f32⟩
  | .hbm, ⟨110, _⟩ => ⟨S1x10, .f32⟩
  | .hbm, ⟨111, _⟩ => ⟨S512x10, .f32⟩
  | .hbm, ⟨112, _⟩ => ⟨S512x10, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S4000x128, .f32⟩
  | .local _ .vmem, ⟨29, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v4 : Ref sig .tc := ⟨.hbm, 43, rfl⟩
abbrev main_cst : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v9 : Ref sig .tc := ⟨.hbm, 71, rfl⟩
abbrev main_cst_0 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v14 : Ref sig .tc := ⟨.hbm, 99, rfl⟩
abbrev main_cst_1 : Ref sig .tc := ⟨.hbm, 100, rfl⟩
abbrev main_v15 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_cst_2 : Ref sig .tc := ⟨.hbm, 105, rfl⟩
abbrev main_v19 : Ref sig .tc := ⟨.hbm, 106, rfl⟩
abbrev main_v20 : Ref sig .tc := ⟨.hbm, 107, rfl⟩
abbrev main_v21 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v13) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S100000x1 : Shape := ⟨2, ![100000, 1]⟩
abbrev S512x10 : Shape := ⟨2, ![512, 10]⟩
abbrev S1x10 : Shape := ⟨2, ![1, 10]⟩

abbrev nBuf : Space → Nat
  | .hbm => 110
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x10, .f32⟩
  | .hbm, ⟨16, _⟩ => ⟨S10, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S512x128, .f32⟩
  | .hbm, ⟨104, _⟩ => ⟨S100000x1, .i32⟩
  | .hbm, ⟨105, _⟩ => ⟨S512x128, .f32⟩
  | .hbm, ⟨106, _⟩ => ⟨S512x10, .f32⟩
  | .hbm, ⟨107, _⟩ => ⟨S1x10, .f32⟩
  | .hbm, ⟨108, _⟩ => ⟨S512x10, .f32⟩
  | .hbm, ⟨109, _⟩ => ⟨S512x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_c_8 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.GinSpec.lean ====
/-
  One layer of a graph isomorphism network after the neighbour sum: a two-stage perceptron on z = h + agg,
  out = [max · 0] ((max (z·W1 + b1) 0)·W2 + b2), as a function on the extended reals, index by index, over plain
  coordinates, so that a row block and the whole array are the same function of their rows; and the two spellings
  a program gives it: the vector dialect's (matrix-unit products into a zero accumulator, one-row biases broadcast
  down the rows) and the host's (dot_general, biases broadcast in two steps).
-/
import Idealize.ShloMosaic.PureOps.Ideal
import Idealize.ShloMosaic.PureOps.Ideal.Laws
import Idealize.ShloMosaic.Lib.ValueIdx
import Idealize.ShloMosaic.Lib.Pipeline.Value
import proofs.«421098_j10737418240833_1_alg».proof.Proof.LibMlp

noncomputable section

open Idealize.ShloMosaic Idealize.ShloMosaic.ValueIdx

namespace Cert.Gin

open Cert.Mlp (row vec relu zero)

/-- A dense stage: row `i 0` of `a` against column `i 1` of `W`, plus the bias. -/
def dense {N K H : ℕ} (a : (⟨2, ![N, K]⟩ : Shape).Idx → EReal) (W : (⟨2, ![K, H]⟩ : Shape).Idx → EReal)
    (b : Fin H → EReal) : (⟨2, ![N, H]⟩ : Shape).Idx → EReal := fun i =>
  (∑ k : Fin K, a (ix2 (i 0) k) * W (ix2 k (i 1))) + b (i 1)

/-- A dense stage reads only the row it is asked for. -/
theorem dense_row {N N' K H : ℕ} (a : (⟨2, ![N, K]⟩ : Shape).Idx → EReal) (a' : (⟨2, ![N', K]⟩ : Shape).Idx → EReal)
    (W : (⟨2, ![K, H]⟩ : Shape).Idx → EReal) (b : Fin H → EReal) (r : Fin N) (r' : Fin N') (j : Fin H)
    (h : ∀ k : Fin K, a (ix2 r k) = a' (ix2 r' k)) :
    dense a W b (ix2 r j) = dense a' W b (ix2 r' j) := by
  unfold dense
  have : (∑ k : Fin K, a (ix2 r k) * W (ix2 k j)) = ∑ k : Fin K, a' (ix2 r' k) * W (ix2 k j) :=
    Finset.sum_congr rfl fun k _ => by rw [h k]
  exact congrArg (fun s => s + b j) this

/-- The layer's perceptron: dense, rectifier, dense, and a closing rectifier when `act`. -/
def mlp (act : Bool) {N K H D : ℕ} (z : (⟨2, ![N, K]⟩ : Shape).Idx → EReal) (W1 : (⟨2, ![K, H]⟩ : Shape).Idx → EReal)
    (b1 : Fin H → EReal) (W2 : (⟨2, ![H, D]⟩ : Shape).Idx → EReal) (b2 : Fin D → EReal) :
    (⟨2, ![N, D]⟩ : Shape).Idx → EReal := fun i =>
  if act then max (dense (relu (dense z W1 b1)) W2 b2 i) zero else dense (relu (dense z W1 b1)) W2 b2 i

/-- The perceptron reads only the row it is asked for. -/
theorem mlp_row (act : Bool) {N N' K H D : ℕ} (z : (⟨2, ![N, K]⟩ : Shape).Idx → EReal) (z' : (⟨2, ![N', K]⟩ : Shape).Idx → EReal)
    (W1 : (⟨2, ![K, H]⟩ : Shape).Idx → EReal) (b1 : Fin H → EReal) (W2 : (⟨2, ![H, D]⟩ : Shape).Idx → EReal) (b2 : Fin D → EReal)
    (r : Fin N) (r' : Fin N') (j : Fin D) (h : ∀ k : Fin K, z (ix2 r k) = z' (ix2 r' k)) :
    mlp act z W1 b1 W2 b2 (ix2 r j) = mlp act z' W1 b1 W2 b2 (ix2 r' j) := by
  have hd : dense (relu (dense z W1 b1)) W2 b2 (ix2 r j) = dense (relu (dense z' W1 b1)) W2 b2 (ix2 r' j) :=
    dense_row _ _ W2 b2 r r' j fun k => by
      show max (dense z W1 b1 (ix2 r k)) zero = max (dense z' W1 b1 (ix2 r' k)) zero
      rw [dense_row z z' W1 b1 r r' k h]
  cases act
  · simpa only [mlp, Bool.false_eq_true, if_false] using hd
  · simp only [mlp, if_true]
    rw [hd]

/-- The vector dialect's dense stage: a matrix-unit product into a zero accumulator plus a one-row bias broadcast. -/
theorem vec_dense {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b : FVec Ideal ⟨2, ![1, H]⟩ .f32) :
    addf (matmul d none a W (constant ⟨2, ![N, H]⟩ .f32 0x00000000#32)) (broadcastTo ⟨2, ![N, H]⟩ b hb)
      = dense a W (row b) := by
  subst hd
  funext i
  obtain ⟨p, q, rfl⟩ : ∃ (p : Fin N) (q : Fin H), i = ix2 p q := ⟨i 0, i 1, eq_ix2 i⟩
  simp only [addf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact Cert.Mlp.plain_sum a W (ix2 p q)
  rw [Cert.Mlp.bcast_row hb b p q, hm]
  rfl

/-- The host's dense stage: a dot_general plus a bias broadcast to one row and then down the rows. -/
theorem host_dense {N K H : ℕ} {φa φw : FTy} (d : DotDims ⟨2, ![N, K]⟩ ⟨2, ![K, H]⟩ ⟨2, ![N, H]⟩) (hd : d = DotDims.plain N K H)
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b : FVec Ideal ⟨1, ![H]⟩ .f32) :
    addf (Host.dotGeneral d none a W)
        (broadcastInDim (⟨2, ![N, H]⟩ : Shape) ![0, 1] h2 (broadcastInDim (⟨2, ![1, H]⟩ : Shape) ![1] h1 b))
      = dense a W (vec b) := by
  subst hd
  funext i
  obtain ⟨p, q, rfl⟩ : ∃ (p : Fin N) (q : Fin H), i = ix2 p q := ⟨i 0, i 1, eq_ix2 i⟩
  simp only [addf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact Cert.Mlp.plain_sum a W (ix2 p q)
  rw [Cert.Mlp.bcast_two h1 h2 b p q, hm]
  rfl

/-- The host's spelling of the perceptron without the closing rectifier. -/
theorem host_mlp {N K H D : ℕ} (d1 : DotDims ⟨2, ![N, K]⟩ ⟨2, ![K, H]⟩ ⟨2, ![N, H]⟩) (hd1 : d1 = DotDims.plain N K H)
    (d2 : DotDims ⟨2, ![N, H]⟩ ⟨2, ![H, D]⟩ ⟨2, ![N, D]⟩) (hd2 : d2 = DotDims.plain N H D)
    (h0 : (⟨0, ![]⟩ : Shape).BroadcastsInDim ⟨2, ![N, H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (h1' : (⟨1, ![D]⟩ : Shape).BroadcastsInDim ⟨2, ![1, D]⟩ ![1])
    (h2' : (⟨2, ![1, D]⟩ : Shape).BroadcastsInDim ⟨2, ![N, D]⟩ ![0, 1])
    (z : FVec Ideal ⟨2, ![N, K]⟩ .f32) (W1 : FVec Ideal ⟨2, ![K, H]⟩ .f32) (b1 : FVec Ideal ⟨1, ![H]⟩ .f32)
    (W2 : FVec Ideal ⟨2, ![H, D]⟩ .f32) (b2 : FVec Ideal ⟨1, ![D]⟩ .f32) :
    addf (Host.dotGeneral d2 none
          (maximumf (addf (Host.dotGeneral d1 none z W1)
              (broadcastInDim (⟨2, ![N, H]⟩ : Shape) ![0, 1] h2 (broadcastInDim (⟨2, ![1, H]⟩ : Shape) ![1] h1 b1)))
            (broadcastInDim (⟨2, ![N, H]⟩ : Shape) ![] h0 (constant (⟨0, ![]⟩ : Shape) .f32 0x00000000#32))) W2)
        (broadcastInDim (⟨2, ![N, D]⟩ : Shape) ![0, 1] h2' (broadcastInDim (⟨2, ![1, D]⟩ : Shape) ![1] h1' b2))
      = mlp false z W1 (vec b1) W2 (vec b2) := by
  rw [host_dense d1 hd1 h1 h2 z W1 b1, Cert.Mlp.host_relu h0, host_dense d2 hd2 h1' h2' _ W2 b2]
  funext i
  simp only [mlp, Bool.false_eq_true, if_false]

/-- The closing rectifier in the host's spelling. -/
theorem host_mlp_act {N K H D : ℕ} (h0' : (⟨0, ![]⟩ : Shape).BroadcastsInDim ⟨2, ![N, D]⟩ ![])
    (z : (⟨2, ![N, K]⟩ : Shape).Idx → EReal) (W1 : (⟨2, ![K, H]⟩ : Shape).Idx → EReal) (b1 : Fin H → EReal)
    (W2 : (⟨2, ![H, D]⟩ : Shape).Idx → EReal) (b2 : Fin D → EReal) :
    maximumf (F := Ideal) (φ := .f32) (mlp false z W1 b1 W2 b2)
        (broadcastInDim (⟨2, ![N, D]⟩ : Shape) ![] h0' (constant (⟨0, ![]⟩ : Shape) .f32 0x00000000#32))
      = mlp true z W1 b1 W2 b2 := by
  rw [Cert.Mlp.host_relu h0']
  funext i
  simp only [mlp, Bool.false_eq_true, if_false, if_true, relu]

end Cert.Gin

end
-- ==== Proof.KernelPayload.lean ====
/-
  The three kernels' stored values as the layer's perceptron of their loaded blocks: at the ideal instance a change
  of float format is the identity and an identity reshape is the identity, so each body is
  [max · 0] ((max ((x0 + x1)·W1 + b1) 0)·W2 + b2) of its six loads.
-/
import proofs.«421098_j10737418240833_1_alg».proof.Proof.Gen.KernelIdeal.Skeleton
import proofs.«421098_j10737418240833_1_alg».proof.Proof.GinSpec

noncomputable section

open Idealize.ShloMosaic Idealize.ShloMosaic.ValueIdx

namespace Cert.KernelIdeal.Payload

open Cert.KernelIdeal Cert.KernelIdeal.Gen

/-- The kernels' product contracts the left operand's columns against the right operand's rows. -/
theorem dot_plain : dot_S4000x128_S128x128_S4000x128_1_0_0_1_n_n = DotDims.plain 4000 128 128 := rfl

theorem pay0_eq (x0 x1 : Vec Ideal S4000x128 .f32) (w1 : Vec Ideal S128x128 .f32) (b1 : Vec Ideal S128 .f32)
    (w2 : Vec Ideal S128x128 .f32) (b2 : Vec Ideal S128 .f32) :
    k0_pay1 (F := Ideal) x0 x1 w1 b1 w2 b2
      = Cert.Gin.mlp true (addf (F := Ideal) (s := S4000x128) (φ := .f32) x0 x1) w1 (Cert.Mlp.vec b1) w2 (Cert.Mlp.vec b2) := by
  unfold k0_pay1
  dsimp only
  simp only [shapeCast_self]
  rw [Cert.Gin.vec_dense _ dot_plain, Cert.Mlp.row_shapeCast, Cert.Mlp.vec_relu, Cert.Gin.vec_dense _ dot_plain,
    Cert.Mlp.row_shapeCast, Cert.Mlp.vec_relu]
  rfl

theorem pay1_eq (x0 x1 : Vec Ideal S4000x128 .f32) (w1 : Vec Ideal S128x128 .f32) (b1 : Vec Ideal S128 .f32)
    (w2 : Vec Ideal S128x128 .f32) (b2 : Vec Ideal S128 .f32) :
    k1_pay1 (F := Ideal) x0 x1 w1 b1 w2 b2
      = Cert.Gin.mlp true (addf (F := Ideal) (s := S4000x128) (φ := .f32) x0 x1) w1 (Cert.Mlp.vec b1) w2 (Cert.Mlp.vec b2) := by
  unfold k1_pay1
  dsimp only
  simp only [shapeCast_self]
  rw [Cert.Gin.vec_dense _ dot_plain, Cert.Mlp.row_shapeCast, Cert.Mlp.vec_relu, Cert.Gin.vec_dense _ dot_plain,
    Cert.Mlp.row_shapeCast, Cert.Mlp.vec_relu]
  rfl

theorem pay2_eq (x0 x1 : Vec Ideal S4000x128 .f32) (w1 : Vec Ideal S128x128 .f32) (b1 : Vec Ideal S128 .f32)
    (w2 : Vec Ideal S128x128 .f32) (b2 : Vec Ideal S128 .f32) :
    k2_pay1 (F := Ideal) x0 x1 w1 b1 w2 b2
      = Cert.Gin.mlp false (addf (F := Ideal) (s := S4000x128) (φ := .f32) x0 x1) w1 (Cert.Mlp.vec b1) w2 (Cert.Mlp.vec b2) := by
  unfold k2_pay1
  dsimp only
  simp only [shapeCast_self]
  rw [Cert.Gin.vec_dense _ dot_plain, Cert.Mlp.row_shapeCast, Cert.Gin.vec_dense _ dot_plain,
    Cert.Mlp.row_shapeCast, Cert.Mlp.vec_relu]
  rfl

end Cert.KernelIdeal.Payload

end
-- ==== Proof.RegionValue0.lean ====
/-
  The first layer's pallas_call, read as a whole array: the 25 row blocks of 4000 rows that its grid points write
  back tile the 100000 rows, block t is the perceptron of rows 4000 t … 4000 t + 3999 of h + agg, and the perceptron
  reads only the row it is asked for; so the output array ends at the perceptron of the whole arrays.
-/
import proofs.«421098_j10737418240833_1_alg».proof.Proof.Gen.KernelIdeal.Frame
import proofs.«421098_j10737418240833_1_alg».proof.Proof.KernelPayload
import Idealize.ShloMosaic.Lib.Pipeline.Value

set_option maxRecDepth 16384

noncomputable section

open Idealize.ShloMosaic Idealize.ShloMosaic.TcCoe Idealize.ShloMosaic.ValueIdx Idealize.SL.Sem

namespace Cert.KernelIdeal.Region0

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The windows' index maps over the grid: the row blocks of h, agg and the output sit at block row t, column block 0;
    the weights and biases are one block each. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Every row block of the output is some point's. -/
theorem idx_onto : ∀ q0 : Fin 25, ∃ t : Fin cfg0.N, win0_6.index t = ![q0.val, 0] :=
  (by decide +kernel : ∀ q0 : Fin 25, ∃ t : Fin grid0.N, win0_6.index t = ![q0.val, 0])

theorem point_lt (t : Fin cfg0.N) : t.val < 25 := t.isLt

/-- Row p of block t is row 4000 t + p of the array. -/
theorem row_lt (t : Fin cfg0.N) (p : Fin 4000) : 4000 * t.val + p.val < 100000 := by
  have := point_lt t
  have := p.isLt
  omega

/-- The whole-array function: the perceptron of h + agg. -/
abbrev G (c : Dev nD) : S100000x128.Idx → EReal :=
  Cert.Gin.mlp true
    (addf (F := Ideal) (s := S100000x128) (φ := .f32) (V c main_arg0) (V c main_v7))
    (V c main_arg3 : FVec Ideal S128x128 .f32) (Cert.Mlp.vec (V c main_arg4 : FVec Ideal S128 .f32))
    (V c main_arg5 : FVec Ideal S128x128 .f32) (Cert.Mlp.vec (V c main_arg6 : FVec Ideal S128 .f32))

/-- Block t of h, at row p: row 4000 t + p of h. -/
theorem blk_h (c : Dev nD) (t : Fin cfg0.N) (p : Fin 4000) (k : Fin 128) :
    (iblk0 V c 0 t : S4000x128.Idx → EReal) (ix2 p k)
      = (V c main_arg0 : S100000x128.Idx → EReal) (ix2 ⟨4000 * t.val + p.val, row_lt t p⟩ k) := by
  obtain ⟨e0, e1, -⟩ := idx_facts t
  show (V c main_arg0 : S100000x128.Idx → EReal) (((cfg0.win 0).blk t).view.emb (ix2 p k)) = _
  refine congrArg (V c main_arg0 : S100000x128.Idx → EReal) ?_
  funext a; apply Fin.ext
  match a with
  | ⟨0, _⟩ => show win0_0.index t (0 : Fin 2) * 4000 + 1 * p.val = 4000 * t.val + p.val; omega
  | ⟨1, _⟩ => show win0_0.index t (1 : Fin 2) * 128 + 1 * k.val = k.val; omega

/-- Block t of agg, at row p: row 4000 t + p of agg. -/
theorem blk_agg (c : Dev nD) (t : Fin cfg0.N) (p : Fin 4000) (k : Fin 128) :
    (iblk0 V c 1 t : S4000x128.Idx → EReal) (ix2 p k)
      = (V c main_v7 : S100000x128.Idx → EReal) (ix2 ⟨4000 * t.val + p.val, row_lt t p⟩ k) := by
  obtain ⟨-, -, e0, e1, -⟩ := idx_facts t
  show (V c main_v7 : S100000x128.Idx → EReal) (((cfg0.win 1).blk t).view.emb (ix2 p k)) = _
  refine congrArg (V c main_v7 : S100000x128.Idx → EReal) ?_
  funext a; apply Fin.ext
  match a with
  | ⟨0, _⟩ => show win0_1.index t (0 : Fin 2) * 4000 + 1 * p.val = 4000 * t.val + p.val; omega
  | ⟨1, _⟩ => show win0_1.index t (1 : Fin 2) * 128 + 1 * k.val = k.val; omega

/-- The first weight's block is the whole matrix. -/
theorem blk_w1 (c : Dev nD) (t : Fin cfg0.N) :
    (iblk0 V c 2 t : S128x128.Idx → EReal) = (V c main_arg3 : S128x128.Idx → EReal) := by
  obtain ⟨-, -, -, -, e0, e1, -⟩ := idx_facts t
  funext y
  show (V c main_arg3 : S128x128.Idx → EReal) (((cfg0.win 2).blk t).view.emb y) = _
  refine congrArg (V c main_arg3 : S128x128.Idx → EReal) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The first bias's block is the whole vector. -/
theorem blk_b1 (c : Dev nD) (t : Fin cfg0.N) :
    (iblk0 V c 3 t : S128.Idx → EReal) = (V c main_arg4 : S128.Idx → EReal) := by
  obtain ⟨-, -, -, -, -, -, e0, -⟩ := idx_facts t
  funext y
  show (V c main_arg4 : S128.Idx → EReal) (((cfg0.win 3).blk t).view.emb y) = _
  refine congrArg (V c main_arg4 : S128.Idx → EReal) ?_
  funext a; apply Fin.ext
  match a with
  | ⟨0, _⟩ => show win0_3.index t (0 : Fin 1) * 128 + 1 * (y 0).val = (y 0).val; omega

/-- The second weight's block is the whole matrix. -/
theorem blk_w2 (c : Dev nD) (t : Fin cfg0.N) :
    (iblk0 V c 4 t : S128x128.Idx → EReal) = (V c main_arg5 : S128x128.Idx → EReal) := by
  obtain ⟨-, -, -, -, -, -, -, e0, e1, -⟩ := idx_facts t
  funext y
  show (V c main_arg5 : S128x128.Idx → EReal) (((cfg0.win 4).blk t).view.emb y) = _
  refine congrArg (V c main_arg5 : S128x128.Idx → EReal) ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The second bias's block is the whole vector. -/
theorem blk_b2 (c : Dev nD) (t : Fin cfg0.N) :
    (iblk0 V c 5 t : S128.Idx → EReal) = (V c main_arg6 : S128.Idx → EReal) := by
  obtain ⟨-, -, -, -, -, -, -, -, -, e0, -⟩ := idx_facts t
  funext y
  show (V c main_arg6 : S128.Idx → EReal) (((cfg0.win 5).blk t).view.emb y) = _
  refine congrArg (V c main_arg6 : S128.Idx → EReal) ?_
  funext a; apply Fin.ext
  match a with
  | ⟨0, _⟩ => show win0_5.index t (0 : Fin 1) * 128 + 1 * (y 0).val = (y 0).val; omega

/-- Row p, column q of the output's block t is row 4000 t + p, column q of the array. -/
theorem emb_out (t : Fin cfg0.N) (p : Fin 4000) (q : Fin 128) :
    (((cfg0.win 6).blk t).view.emb (ix2 p q) : S100000x128.Idx) = ix2 ⟨4000 * t.val + p.val, row_lt t p⟩ q := by
  obtain ⟨-, -, -, -, -, -, -, -, -, -, e0, e1⟩ := idx_facts t
  funext a; apply Fin.ext
  match a with
  | ⟨0, _⟩ => show win0_6.index t (0 : Fin 2) * 4000 + 1 * p.val = 4000 * t.val + p.val; omega
  | ⟨1, _⟩ => show win0_6.index t (1 : Fin 2) * 128 + 1 * q.val = q.val; omega

/-- What point t writes back is block t of the perceptron of the whole arrays. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 V c).after 6 t) = _
  rw [after0_6]
  unfold out0_6
  rw [View.canon_unit_zero zero2]
  simp only [View.ld_unit_zero (S := S4000x128) zero2, View.ld_unit_zero (S := S128x128) zero2, View.ld_unit_zero (S := S128) zero1]
  rw [Cert.KernelIdeal.Payload.pay0_eq]
  rw [blk_w1 V c t, blk_b1 V c t, blk_w2 V c t, blk_b2 V c t]
  funext j
  obtain ⟨p, q, rfl⟩ : ∃ (p : Fin 4000) (q : Fin 128), j = ix2 p q := ⟨j 0, j 1, eq_ix2 j⟩
  show Cert.Gin.mlp true (addf (F := Ideal) (s := S4000x128) (φ := .f32) (iblk0 V c 0 t) (iblk0 V c 1 t))
      (V c main_arg3 : S128x128.Idx → EReal) (Cert.Mlp.vec (V c main_arg4 : S128.Idx → EReal))
      (V c main_arg5 : S128x128.Idx → EReal) (Cert.Mlp.vec (V c main_arg6 : S128.Idx → EReal)) (ix2 p q)
    = G V c (((cfg0.win 6).blk t).view.emb (ix2 p q))
  rw [emb_out t p q]
  exact Cert.Gin.mlp_row true _ _ _ _ _ _ p ⟨4000 * t.val + p.val, row_lt t p⟩ q
    (fun k => by rw [addf_apply, addf_apply, blk_h V c t p k, blk_agg V c t p k])

/-- An index of the array is in point t's block iff each coordinate is in the block's range on its axis. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v8).slice (win0_6.rect t)).set ↔ _
  rw [View.set_slice_whole, Rect.mem_set_unit]
  exact Iff.rfl

/-- Row r of the array is in the block of point r / 4000: the 25 row blocks tile the 100000 rows. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- The output array of the first pallas_call after its last grid point, from the arrays as the region finds them. -/
theorem value (c : Dev nD) :
    (dat0 (F := Ideal) V c).arrAt 6 cfg0.N
      = Cert.Gin.mlp true
          (addf (F := Ideal) (s := S100000x128) (φ := .f32) (V c main_arg0) (V c main_v7))
          (V c main_arg3 : FVec Ideal S128x128 .f32) (Cert.Mlp.vec (V c main_arg4 : FVec Ideal S128 .f32))
          (V c main_arg5 : FVec Ideal S128x128 .f32) (Cert.Mlp.vec (V c main_arg6 : FVec Ideal S128 .f32)) :=
  (dat0 (F := Ideal) V c).arrAt_eq_of_cover 6 (G V c) (fun t _ => flushed_eq V c t) cover

end Cert.KernelIdeal.Region0

end
-- ==== Proof.RegionValue1.lean ====
/-
  The second layer's pallas_call, read as a whole array: the 25 row blocks of 4000 rows that its grid points write
  back tile the 100000 rows, block t is the perceptron of rows 4000 t … 4000 t + 3999 of h + agg, and the perceptron
  reads only the row it is asked for; so the output array ends at the perceptron of the whole arrays.
-/
import proofs.«421098_j10737418240833_1_alg».proof.Proof.Gen.KernelIdeal.Frame
import proofs.«421098_j10737418240833_1_alg».proof.Proof.KernelPayload
import Idealize.ShloMosaic.Lib.Pipeline.Value

set_option maxRecDepth 16384

noncomputable section

open Idealize.ShloMosaic Idealize.ShloMosaic.TcCoe Idealize.ShloMosaic.ValueIdx Idealize.SL.Sem

namespace Cert.KernelIdeal.Region1

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The windows' index maps over the grid: the row blocks of h, agg and the output sit at block row t, column block 0;
    the weights and biases are one block each. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Every row block of the output is some point's. -/
theorem idx_onto : ∀ q0 : Fin 25, ∃ t : Fin cfg1.N, win1_6.index t = ![q0.val, 0] :=
  (by decide +kernel : ∀ q0 : Fin 25, ∃ t : Fin grid1.N, win1_6.index t = ![q0.val, 0])

theorem point_lt (t : Fin cfg1.N) : t.val < 25 := t.isLt

/-- Row p of block t is row 4000 t + p of the array. -/
theorem row_lt (t : Fin cfg1.N) (p : Fin 4000) : 4000 * t.val + p.val < 100000 := by
  have := point_lt t
  have := p.isLt
  omega

/-- The whole-array function: the perceptron of h + agg. -/
abbrev G (c : Dev nD) : S100000x128.Idx → EReal :=
  Cert.Gin.mlp true
    (addf (F := Ideal) (s := S100000x128) (φ := .f32) (V c main_v8) (V c main_v12))
    (V c main_arg7 : FVec Ideal S128x128 .f32) (Cert.Mlp.vec (V c main_arg8 : FVec Ideal S128 .f32))
    (V c main_arg9 : FVec Ideal S128x128 .f32) (Cert.Mlp.vec (V c main_arg10 : FVec Ideal S128 .f32))

/-- Block t of h, at row p: row 4000 t + p of h. -/
theorem blk_h (c : Dev nD) (t : Fin cfg1.N) (p : Fin 4000) (k : Fin 128) :
    (iblk1 V c 0 t : S4000x128.Idx → EReal) (ix2 p k)
      = (V c main_v8 : S100000x128.Idx → EReal) (ix2 ⟨4000 * t.val + p.val, row_lt t p⟩ k) := by
  obtain ⟨e0, e1, -⟩ := idx_facts t
  show (V c main_v8 : S100000x128.Idx → EReal) (((cfg1.win 0).blk t).view.emb (ix2 p k)) = _
  refine congrArg (V c main_v8 : S100000x128.Idx → EReal) ?_
  funext a; apply Fin.ext
  match a with
  | ⟨0, _⟩ => show win1_0.index t (0 : Fin 2) * 4000 + 1 * p.val = 4000 * t.val + p.val; omega
  | ⟨1, _⟩ => show win1_0.index t (1 : Fin 2) * 128 + 1 * k.val = k.val; omega

/-- Block t of agg, at row p: row 4000 t + p of agg. -/
theorem blk_agg (c : Dev nD) (t : Fin cfg1.N) (p : Fin 4000) (k : Fin 128) :
    (iblk1 V c 1 t : S4000x128.Idx → EReal) (ix2 p k)
      = (V c main_v12 : S100000x128.Idx → EReal) (ix2 ⟨4000 * t.val + p.val, row_lt t p⟩ k) := by
  obtain ⟨-, -, e0, e1, -⟩ := idx_facts t
  show (V c main_v12 : S100000x128.Idx → EReal) (((cfg1.win 1).blk t).view.emb (ix2 p k)) = _
  refine congrArg (V c main_v12 : S100000x128.Idx → EReal) ?_
  funext a; apply Fin.ext
  match a with
  | ⟨0, _⟩ => show win1_1.index t (0 : Fin 2) * 4000 + 1 * p.val = 4000 * t.val + p.val; omega
  | ⟨1, _⟩ => show win1_1.index t (1 : Fin 2) * 128 + 1 * k.val = k.val; omega

/-- The first weight's block is the whole matrix. -/
theorem blk_w1 (c : Dev nD) (t : Fin cfg1.N) :
    (iblk1 V c 2 t : S128x128.Idx → EReal) = (V c main_arg7 : S128x128.Idx → EReal) := by
  obtain ⟨-, -, -, -, e0, e1, -⟩ := idx_facts t
  funext y
  show (V c main_arg7 : S128x128.Idx → EReal) (((cfg1.win 2).blk t).view.emb y) = _
  refine congrArg (V c main_arg7 : S128x128.Idx → EReal) ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first bias's block is the whole vector. -/
theorem blk_b1 (c : Dev nD) (t : Fin cfg1.N) :
    (iblk1 V c 3 t : S128.Idx → EReal) = (V c main_arg8 : S128.Idx → EReal) := by
  obtain ⟨-, -, -, -, -, -, e0, -⟩ := idx_facts t
  funext y
  show (V c main_arg8 : S128.Idx → EReal) (((cfg1.win 3).blk t).view.emb y) = _
  refine congrArg (V c main_arg8 : S128.Idx → EReal) ?_
  funext a; apply Fin.ext
  match a with
  | ⟨0, _⟩ => show win1_3.index t (0 : Fin 1) * 128 + 1 * (y 0).val = (y 0).val; omega

/-- The second weight's block is the whole matrix. -/
theorem blk_w2 (c : Dev nD) (t : Fin cfg1.N) :
    (iblk1 V c 4 t : S128x128.Idx → EReal) = (V c main_arg9 : S128x128.Idx → EReal) := by
  obtain ⟨-, -, -, -, -, -, -, e0, e1, -⟩ := idx_facts t
  funext y
  show (V c main_arg9 : S128x128.Idx → EReal) (((cfg1.win 4).blk t).view.emb y) = _
  refine congrArg (V c main_arg9 : S128x128.Idx → EReal) ?_
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias's block is the whole vector. -/
theorem blk_b2 (c : Dev nD) (t : Fin cfg1.N) :
    (iblk1 V c 5 t : S128.Idx → EReal) = (V c main_arg10 : S128.Idx → EReal) := by
  obtain ⟨-, -, -, -, -, -, -, -, -, e0, -⟩ := idx_facts t
  funext y
  show (V c main_arg10 : S128.Idx → EReal) (((cfg1.win 5).blk t).view.emb y) = _
  refine congrArg (V c main_arg10 : S128.Idx → EReal) ?_
  funext a; apply Fin.ext
  match a with
  | ⟨0, _⟩ => show win1_5.index t (0 : Fin 1) * 128 + 1 * (y 0).val = (y 0).val; omega

/-- Row p, column q of the output's block t is row 4000 t + p, column q of the array. -/
theorem emb_out (t : Fin cfg1.N) (p : Fin 4000) (q : Fin 128) :
    (((cfg1.win 6).blk t).view.emb (ix2 p q) : S100000x128.Idx) = ix2 ⟨4000 * t.val + p.val, row_lt t p⟩ q := by
  obtain ⟨-, -, -, -, -, -, -, -, -, -, e0, e1⟩ := idx_facts t
  funext a; apply Fin.ext
  match a with
  | ⟨0, _⟩ => show win1_6.index t (0 : Fin 2) * 4000 + 1 * p.val = 4000 * t.val + p.val; omega
  | ⟨1, _⟩ => show win1_6.index t (1 : Fin 2) * 128 + 1 * q.val = q.val; omega

/-- What point t writes back is block t of the perceptron of the whole arrays. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 V c).after 6 t) = _
  rw [after1_6]
  unfold out1_6
  rw [View.canon_unit_zero zero2]
  simp only [View.ld_unit_zero (S := S4000x128) zero2, View.ld_unit_zero (S := S128x128) zero2, View.ld_unit_zero (S := S128) zero1]
  rw [Cert.KernelIdeal.Payload.pay1_eq]
  rw [blk_w1 V c t, blk_b1 V c t, blk_w2 V c t, blk_b2 V c t]
  funext j
  obtain ⟨p, q, rfl⟩ : ∃ (p : Fin 4000) (q : Fin 128), j = ix2 p q := ⟨j 0, j 1, eq_ix2 j⟩
  show Cert.Gin.mlp true (addf (F := Ideal) (s := S4000x128) (φ := .f32) (iblk1 V c 0 t) (iblk1 V c 1 t))
      (V c main_arg7 : S128x128.Idx → EReal) (Cert.Mlp.vec (V c main_arg8 : S128.Idx → EReal))
      (V c main_arg9 : S128x128.Idx → EReal) (Cert.Mlp.vec (V c main_arg10 : S128.Idx → EReal)) (ix2 p q)
    = G V c (((cfg1.win 6).blk t).view.emb (ix2 p q))
  rw [emb_out t p q]
  exact Cert.Gin.mlp_row true _ _ _ _ _ _ p ⟨4000 * t.val + p.val, row_lt t p⟩ q
    (fun k => by rw [addf_apply, addf_apply, blk_h V c t p k, blk_agg V c t p k])

/-- An index of the array is in point t's block iff each coordinate is in the block's range on its axis. -/
theorem mem_blk (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v13).slice (win1_6.rect t)).set ↔ _
  rw [View.set_slice_whole, Rect.mem_set_unit]
  exact Iff.rfl

/-- Row r of the array is in the block of point r / 4000: the 25 row blocks tile the 100000 rows. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto ⟨(i 0).val / 4000, by omega⟩
  have q0 : win1_6.index t (0 : Fin 2) = (i 0).val / 4000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- The output array of the second pallas_call after its last grid point, from the arrays as the region finds them. -/
theorem value (c : Dev nD) :
    (dat1 (F := Ideal) V c).arrAt 6 cfg1.N
      = Cert.Gin.mlp true
          (addf (F := Ideal) (s := S100000x128) (φ := .f32) (V c main_v8) (V c main_v12))
          (V c main_arg7 : FVec Ideal S128x128 .f32) (Cert.Mlp.vec (V c main_arg8 : FVec Ideal S128 .f32))
          (V c main_arg9 : FVec Ideal S128x128 .f32) (Cert.Mlp.vec (V c main_arg10 : FVec Ideal S128 .f32)) :=
  (dat1 (F := Ideal) V c).arrAt_eq_of_cover 6 (G V c) (fun t _ => flushed_eq V c t) cover

end Cert.KernelIdeal.Region1

end
-- ==== Proof.RegionValue2.lean ====
/-
  The third layer's pallas_call, read as a whole array: the 25 row blocks of 4000 rows that its grid points write
  back tile the 100000 rows, block t is the perceptron of rows 4000 t … 4000 t + 3999 of h + agg, and the perceptron
  reads only the row it is asked for; so the output array ends at the perceptron of the whole arrays.
-/
import proofs.«421098_j10737418240833_1_alg».proof.Proof.Gen.KernelIdeal.Frame
import proofs.«421098_j10737418240833_1_alg».proof.Proof.KernelPayload
import Idealize.ShloMosaic.Lib.Pipeline.Value

set_option maxRecDepth 16384

noncomputable section

open Idealize.ShloMosaic Idealize.ShloMosaic.TcCoe Idealize.ShloMosaic.ValueIdx Idealize.SL.Sem

namespace Cert.KernelIdeal.Region2

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The windows' index maps over the grid: the row blocks of h, agg and the output sit at block row t, column block 0;
    the weights and biases are one block each. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Every row block of the output is some point's. -/
theorem idx_onto : ∀ q0 : Fin 25, ∃ t : Fin cfg2.N, win2_6.index t = ![q0.val, 0] :=
  (by decide +kernel : ∀ q0 : Fin 25, ∃ t : Fin grid2.N, win2_6.index t = ![q0.val, 0])

theorem point_lt (t : Fin cfg2.N) : t.val < 25 := t.isLt

/-- Row p of block t is row 4000 t + p of the array. -/
theorem row_lt (t : Fin cfg2.N) (p : Fin 4000) : 4000 * t.val + p.val < 100000 := by
  have := point_lt t
  have := p.isLt
  omega

/-- The whole-array function: the perceptron of h + agg. -/
abbrev G (c : Dev nD) : S100000x128.Idx → EReal :=
  Cert.Gin.mlp false
    (addf (F := Ideal) (s := S100000x128) (φ := .f32) (V c main_v13) (V c main_v17))
    (V c main_arg11 : FVec Ideal S128x128 .f32) (Cert.Mlp.vec (V c main_arg12 : FVec Ideal S128 .f32))
    (V c main_arg13 : FVec Ideal S128x128 .f32) (Cert.Mlp.vec (V c main_arg14 : FVec Ideal S128 .f32))

/-- Block t of h, at row p: row 4000 t + p of h. -/
theorem blk_h (c : Dev nD) (t : Fin cfg2.N) (p : Fin 4000) (k : Fin 128) :
    (iblk2 V c 0 t : S4000x128.Idx → EReal) (ix2 p k)
      = (V c main_v13 : S100000x128.Idx → EReal) (ix2 ⟨4000 * t.val + p.val, row_lt t p⟩ k) := by
  obtain ⟨e0, e1, -⟩ := idx_facts t
  show (V c main_v13 : S100000x128.Idx → EReal) (((cfg2.win 0).blk t).view.emb (ix2 p k)) = _
  refine congrArg (V c main_v13 : S100000x128.Idx → EReal) ?_
  funext a; apply Fin.ext
  match a with
  | ⟨0, _⟩ => show win2_0.index t (0 : Fin 2) * 4000 + 1 * p.val = 4000 * t.val + p.val; omega
  | ⟨1, _⟩ => show win2_0.index t (1 : Fin 2) * 128 + 1 * k.val = k.val; omega

/-- Block t of agg, at row p: row 4000 t + p of agg. -/
theorem blk_agg (c : Dev nD) (t : Fin cfg2.N) (p : Fin 4000) (k : Fin 128) :
    (iblk2 V c 1 t : S4000x128.Idx → EReal) (ix2 p k)
      = (V c main_v17 : S100000x128.Idx → EReal) (ix2 ⟨4000 * t.val + p.val, row_lt t p⟩ k) := by
  obtain ⟨-, -, e0, e1, -⟩ := idx_facts t
  show (V c main_v17 : S100000x128.Idx → EReal) (((cfg2.win 1).blk t).view.emb (ix2 p k)) = _
  refine congrArg (V c main_v17 : S100000x128.Idx → EReal) ?_
  funext a; apply Fin.ext
  match a with
  | ⟨0, _⟩ => show win2_1.index t (0 : Fin 2) * 4000 + 1 * p.val = 4000 * t.val + p.val; omega
  | ⟨1, _⟩ => show win2_1.index t (1 : Fin 2) * 128 + 1 * k.val = k.val; omega

/-- The first weight's block is the whole matrix. -/
theorem blk_w1 (c : Dev nD) (t : Fin cfg2.N) :
    (iblk2 V c 2 t : S128x128.Idx → EReal) = (V c main_arg11 : S128x128.Idx → EReal) := by
  obtain ⟨-, -, -, -, e0, e1, -⟩ := idx_facts t
  funext y
  show (V c main_arg11 : S128x128.Idx → EReal) (((cfg2.win 2).blk t).view.emb y) = _
  refine congrArg (V c main_arg11 : S128x128.Idx → EReal) ?_
  funext a; apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The first bias's block is the whole vector. -/
theorem blk_b1 (c : Dev nD) (t : Fin cfg2.N) :
    (iblk2 V c 3 t : S128.Idx → EReal) = (V c main_arg12 : S128.Idx → EReal) := by
  obtain ⟨-, -, -, -, -, -, e0, -⟩ := idx_facts t
  funext y
  show (V c main_arg12 : S128.Idx → EReal) (((cfg2.win 3).blk t).view.emb y) = _
  refine congrArg (V c main_arg12 : S128.Idx → EReal) ?_
  funext a; apply Fin.ext
  match a with
  | ⟨0, _⟩ => show win2_3.index t (0 : Fin 1) * 128 + 1 * (y 0).val = (y 0).val; omega

/-- The second weight's block is the whole matrix. -/
theorem blk_w2 (c : Dev nD) (t : Fin cfg2.N) :
    (iblk2 V c 4 t : S128x128.Idx → EReal) = (V c main_arg13 : S128x128.Idx → EReal) := by
  obtain ⟨-, -, -, -, -, -, -, e0, e1, -⟩ := idx_facts t
  funext y
  show (V c main_arg13 : S128x128.Idx → EReal) (((cfg2.win 4).blk t).view.emb y) = _
  refine congrArg (V c main_arg13 : S128x128.Idx → EReal) ?_
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- The second bias's block is the whole vector. -/
theorem blk_b2 (c : Dev nD) (t : Fin cfg2.N) :
    (iblk2 V c 5 t : S128.Idx → EReal) = (V c main_arg14 : S128.Idx → EReal) := by
  obtain ⟨-, -, -, -, -, -, -, -, -, e0, -⟩ := idx_facts t
  funext y
  show (V c main_arg14 : S128.Idx → EReal) (((cfg2.win 5).blk t).view.emb y) = _
  refine congrArg (V c main_arg14 : S128.Idx → EReal) ?_
  funext a; apply Fin.ext
  match a with
  | ⟨0, _⟩ => show win2_5.index t (0 : Fin 1) * 128 + 1 * (y 0).val = (y 0).val; omega

/-- Row p, column q of the output's block t is row 4000 t + p, column q of the array. -/
theorem emb_out (t : Fin cfg2.N) (p : Fin 4000) (q : Fin 128) :
    (((cfg2.win 6).blk t).view.emb (ix2 p q) : S100000x128.Idx) = ix2 ⟨4000 * t.val + p.val, row_lt t p⟩ q := by
  obtain ⟨-, -, -, -, -, -, -, -, -, -, e0, e1⟩ := idx_facts t
  funext a; apply Fin.ext
  match a with
  | ⟨0, _⟩ => show win2_6.index t (0 : Fin 2) * 4000 + 1 * p.val = 4000 * t.val + p.val; omega
  | ⟨1, _⟩ => show win2_6.index t (1 : Fin 2) * 128 + 1 * q.val = q.val; omega

/-- What point t writes back is block t of the perceptron of the whole arrays. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 V c).after 6 t) = _
  rw [after2_6]
  unfold out2_6
  rw [View.canon_unit_zero zero2]
  simp only [View.ld_unit_zero (S := S4000x128) zero2, View.ld_unit_zero (S := S128x128) zero2, View.ld_unit_zero (S := S128) zero1]
  rw [Cert.KernelIdeal.Payload.pay2_eq]
  rw [blk_w1 V c t, blk_b1 V c t, blk_w2 V c t, blk_b2 V c t]
  funext j
  obtain ⟨p, q, rfl⟩ : ∃ (p : Fin 4000) (q : Fin 128), j = ix2 p q := ⟨j 0, j 1, eq_ix2 j⟩
  show Cert.Gin.mlp false (addf (F := Ideal) (s := S4000x128) (φ := .f32) (iblk2 V c 0 t) (iblk2 V c 1 t))
      (V c main_arg11 : S128x128.Idx → EReal) (Cert.Mlp.vec (V c main_arg12 : S128.Idx → EReal))
      (V c main_arg13 : S128x128.Idx → EReal) (Cert.Mlp.vec (V c main_arg14 : S128.Idx → EReal)) (ix2 p q)
    = G V c (((cfg2.win 6).blk t).view.emb (ix2 p q))
  rw [emb_out t p q]
  exact Cert.Gin.mlp_row false _ _ _ _ _ _ p ⟨4000 * t.val + p.val, row_lt t p⟩ q
    (fun k => by rw [addf_apply, addf_apply, blk_h V c t p k, blk_agg V c t p k])

/-- An index of the array is in point t's block iff each coordinate is in the block's range on its axis. -/
theorem mem_blk (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v18).slice (win2_6.rect t)).set ↔ _
  rw [View.set_slice_whole, Rect.mem_set_unit]
  exact Iff.rfl

/-- Row r of the array is in the block of point r / 4000: the 25 row blocks tile the 100000 rows. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := idx_onto ⟨(i 0).val / 4000, by omega⟩
  have q0 : win2_6.index t (0 : Fin 2) = (i 0).val / 4000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 128 ≤ (i 1).val ∧ (i 1).val < win2_6.index t (1 : Fin 2) * 128 + 128; omega

/-- The output array of the third pallas_call after its last grid point, from the arrays as the region finds them. -/
theorem value (c : Dev nD) :
    (dat2 (F := Ideal) V c).arrAt 6 cfg2.N
      = Cert.Gin.mlp false
          (addf (F := Ideal) (s := S100000x128) (φ := .f32) (V c main_v13) (V c main_v17))
          (V c main_arg11 : FVec Ideal S128x128 .f32) (Cert.Mlp.vec (V c main_arg12 : FVec Ideal S128 .f32))
          (V c main_arg13 : FVec Ideal S128x128 .f32) (Cert.Mlp.vec (V c main_arg14 : FVec Ideal S128 .f32)) :=
  (dat2 (F := Ideal) V c).arrAt_eq_of_cover 6 (G V c) (fun t _ => flushed_eq V c t) cover

end Cert.KernelIdeal.Region2

end
-- ==== Proof.GinNet.lean ====
/-
  The whole network as one function of its arguments, on the extended reals: three layers
  h ↦ mlp (h + agg h), where agg h sums over the edges e, into row dst e, the row of h that the (wrapped) source id
  src e names — spelt with the host's gather and scatter-add, which both programs share —, a rectifier closing the
  first two; then the rows pooled by graph id with a scatter-add and a final linear map. The dimension-number records
  and the stated shape relations are parameters, so that two programs printing the same operations under their own
  names instantiate ONE function.
-/
import proofs.«421098_j10737418240833_1_alg».proof.Proof.GinSpec

noncomputable section

open Idealize.ShloMosaic Idealize.ShloMosaic.ValueIdx

namespace Cert.Gin

abbrev S0 : Shape := ⟨0, ![]⟩
abbrev SN : Shape := ⟨2, ![100000, 128]⟩
abbrev SPair : Shape := ⟨2, ![2, 1600000]⟩
abbrev S1E : Shape := ⟨2, ![1, 1600000]⟩
abbrev SE : Shape := ⟨1, ![1600000]⟩
abbrev SEc : Shape := ⟨2, ![1600000, 1]⟩
abbrev SEF : Shape := ⟨2, ![1600000, 128]⟩
abbrev SW : Shape := ⟨2, ![128, 128]⟩
abbrev SB : Shape := ⟨1, ![128]⟩
abbrev SNv : Shape := ⟨1, ![100000]⟩
abbrev SNc : Shape := ⟨2, ![100000, 1]⟩
abbrev SG : Shape := ⟨2, ![512, 128]⟩
abbrev SLW : Shape := ⟨2, ![128, 10]⟩
abbrev SLB : Shape := ⟨1, ![10]⟩
abbrev S1L : Shape := ⟨2, ![1, 10]⟩
abbrev SO : Shape := ⟨2, ![512, 10]⟩

/-- What a program states to print the network's host operations: the dimension numbers of its gather, its two
    scatter-adds and its closing product, and the shape relations of its slices, reshape and broadcasts. -/
structure Sig where
  gd : GatherDims SN SEc SEF
  sd : ScatterDims SN SEc SEF
  sdp : ScatterDims SG SNc SN
  dp : DotDims SG SLW SO
  slice0 : SPair.Slices ![0, 0] S1E
  slice1 : SPair.Slices ![1, 0] S1E
  cast : S1E.ShapeCasts SE
  b0E : S0.BroadcastsInDim SE ![]
  bcol : SE.BroadcastsInDim SEc ![0]
  b0N : S0.BroadcastsInDim SN ![]
  b0G : S0.BroadcastsInDim SG ![]
  bNcol : SNv.BroadcastsInDim SNc ![0]
  bO1 : SLB.BroadcastsInDim S1L ![1]
  bO2 : S1L.BroadcastsInDim SO ![0, 1]

variable (R : Sig)

/-- Row `r` of the index pair as a rank-one vector of ids. -/
def srcIds (ei : IVec SPair 32) : IVec SE 32 := shapeCast SE (extractStridedSlice S1E ![0, 0] ei R.slice0) R.cast
def dstIds (ei : IVec SPair 32) : IVec SE 32 := shapeCast SE (extractStridedSlice S1E ![1, 0] ei R.slice1) R.cast

/-- The source ids wrapped the NumPy way (a negative id counts from the end), as a one-column index table. -/
def srcCol (ei : IVec SPair 32) : IVec SEc 32 :=
  broadcastInDim SEc ![0] R.bcol
    (select (cmpi .slt (srcIds R ei) (broadcastInDim SE ![] R.b0E (constantI S0 32 0#32)))
      (addi (srcIds R ei) (broadcastInDim SE ![] R.b0E (constantI S0 32 100000#32))) (srcIds R ei))

/-- The neighbour sum: row `dst e` collects row `src e` of `h`, over all edges. -/
def agg (ei : IVec SPair 32) (h : FVec Ideal SN .f32) : FVec Ideal SN .f32 :=
  Host.scatterAdd R.sd (broadcastInDim SN ![] R.b0N (constant S0 .f32 0x00000000#32))
    (broadcastInDim SEc ![0] R.bcol (dstIds R ei)) (Host.gather R.gd h (srcCol R ei))

/-- One layer: the perceptron of `h + agg h`. -/
def layer (act : Bool) (ei : IVec SPair 32) (h : FVec Ideal SN .f32) (w1 : FVec Ideal SW .f32) (b1 : FVec Ideal SB .f32)
    (w2 : FVec Ideal SW .f32) (b2 : FVec Ideal SB .f32) : FVec Ideal SN .f32 :=
  mlp act (addf h (agg R ei h)) w1 (Cert.Mlp.vec b1) w2 (Cert.Mlp.vec b2)

/-- The rows pooled by graph id, then the closing linear map. -/
def head (batch : IVec SNv 32) (h : FVec Ideal SN .f32) (lw : FVec Ideal SLW .f32) (lb : FVec Ideal SLB .f32) : FVec Ideal SO .f32 :=
  addf (Host.dotGeneral R.dp none
      (Host.scatterAdd R.sdp (broadcastInDim SG ![] R.b0G (constant S0 .f32 0x00000000#32)) (broadcastInDim SNc ![0] R.bNcol batch) h) lw)
    (broadcastInDim SO ![0, 1] R.bO2 (broadcastInDim S1L ![1] R.bO1 lb))

/-- The network. -/
def net (x : FVec Ideal SN .f32) (ei : IVec SPair 32) (batch : IVec SNv 32)
    (w10 : FVec Ideal SW .f32) (b10 : FVec Ideal SB .f32) (w20 : FVec Ideal SW .f32) (b20 : FVec Ideal SB .f32)
    (w11 : FVec Ideal SW .f32) (b11 : FVec Ideal SB .f32) (w21 : FVec Ideal SW .f32) (b21 : FVec Ideal SB .f32)
    (w12 : FVec Ideal SW .f32) (b12 : FVec Ideal SB .f32) (w22 : FVec Ideal SW .f32) (b22 : FVec Ideal SB .f32)
    (lw : FVec Ideal SLW .f32) (lb : FVec Ideal SLB .f32) : FVec Ideal SO .f32 :=
  head R batch
    (layer R false ei (layer R true ei (layer R true ei x w10 b10 w20 b20) w11 b11 w21 b21) w12 b12 w22 b22) lw lb

end Cert.Gin

end
-- ==== Proof.KernelSig.lean ====
/-
  The kernel program's own dimension-number records and stated shape relations, as the network's parameters.
-/
import proofs.«421098_j10737418240833_1_alg».proof.Proof.Gen.KernelIdeal
import proofs.«421098_j10737418240833_1_alg».proof.Proof.GinNet

noncomputable section

open Idealize.ShloMosaic

namespace Cert.KernelIdeal.Chain

open Cert.KernelIdeal Cert.KernelIdeal.Facts₀ Cert.KernelIdeal.Facts

/-- The gather, the two scatter-adds and the closing product as this program prints them. -/
def netSig : Cert.Gin.Sig where
  gd := gather_S100000x128_S1600000x1_S1600000x128_1_0_n_n_0_1_1128
  sd := scatter_S100000x128_S1600000x1_S1600000x128_1_0_0_1
  sdp := scatter_S512x128_S100000x1_S100000x128_1_0_0_1
  dp := dot_S512x128_S128x10_S512x10_1_0_0_1_n_n
  slice0 := Facts₀.slices_S2x1600000_S1x1600000_0_0
  slice1 := Facts₀.slices_S2x1600000_S1x1600000_1_0
  cast := Facts₀.shapeCasts_S1x1600000_S1600000
  b0E := Facts₀.bcast_S_S1600000
  bcol := Facts₀.bcast_S1600000_S1600000x1_0
  b0N := Facts₀.bcast_S_S100000x128
  b0G := Facts₀.bcast_S_S512x128
  bNcol := Facts₀.bcast_S100000_S100000x1_0
  bO1 := Facts₀.bcast_S10_S1x10_1
  bO2 := Facts₀.bcast_S1x10_S512x10_0_1

end Cert.KernelIdeal.Chain

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.TakeFill.lean ====
/-
  jnp.take's fill mode on in-range ids is the plain gather: the ids are wrapped the NumPy way, the range test
  0 ≤ id' ≤ 99999 of the wrapped ids is then the bit 1 at every edge, its reduce-by-and over the trailing unit axis
  and its broadcast along the 128 columns are 1 everywhere, and a select under an all-ones mask is its first branch
  (the fill value, a not-a-number word, is never read).
-/
import proofs.«421098_j10737418240833_1_alg».proof.Proof.LibIndexWrap
import Idealize.ShloMosaic.Lib.ValueIdx
import Idealize.ShloMosaic.Lib.Pipeline.Value

noncomputable section

open Idealize.ShloMosaic Idealize.ShloMosaic.ValueIdx

namespace Cert.TakeFill

abbrev S_ : Shape := ⟨0, ![]⟩
abbrev S1 : Shape := ⟨1, ![1]⟩
abbrev S1x1 : Shape := ⟨2, ![1, 1]⟩
abbrev SE : Shape := ⟨1, ![1600000]⟩
abbrev SEx1 : Shape := ⟨2, ![1600000, 1]⟩
abbrev SEx128 : Shape := ⟨2, ![1600000, 128]⟩
abbrev SNx128 : Shape := ⟨2, ![100000, 128]⟩

/-- The ids wrapped the NumPy way and laid out as a one-column index table. -/
abbrev wrapIdx (h0 : S_.BroadcastsInDim SE ![]) (hcol : SE.BroadcastsInDim SEx1 ![0]) (src : IVec SE 32) : IVec SEx1 32 :=
  broadcastInDim SEx1 ![0] hcol
    (select (cmpi .slt src (broadcastInDim SE ![] h0 (constantI S_ 32 0#32)))
      (addi src (broadcastInDim SE ![] h0 (constantI S_ 32 100000#32))) src)

theorem take_fill {F : FTy → Type} [FloatOps F] (gd : GatherDims SNx128 SEx1 SEx128)
    (h0 : S_.BroadcastsInDim SE ![]) (hcol : SE.BroadcastsInDim SEx1 ![0]) (hz : S_.BroadcastsInDim SEx1 ![])
    (hh1 : S1.BroadcastsInDim S1x1 ![1]) (hh2 : S1x1.BroadcastsInDim SEx1 ![0, 1])
    (hred : SEx1.ReducesTo [1] SE) (hu : 0 < S_.numel)
    (hm : SE.BroadcastsInDim SEx128 ![0]) (hf : S_.BroadcastsInDim SEx128 ![])
    (tbl : FVec F SNx128 .f32) (src : IVec SE 32)
    (hsrc : ∀ e : SE.Idx, -100000 ≤ (src e).toInt ∧ (src e).toInt < 100000) :
    select
        (broadcastInDim SEx128 ![0] hm
          (Host.reduce IntOp.andi
            (andi (cmpi .sge (wrapIdx h0 hcol src) (broadcastInDim SEx1 ![] hz (constantI S_ 32 0#32)))
              (cmpi .sle (wrapIdx h0 hcol src)
                (broadcastInDim SEx1 ![0, 1] hh2 (broadcastInDim S1x1 ![1] hh1 (constantI S1 32 99999#32)))))
            (constantI S_ 1 1#1) hred hu))
        (Host.gather gd tbl (wrapIdx h0 hcol src))
        (broadcastInDim SEx128 ![] hf (constant S_ .f32 0x7FC00000#32))
      = Host.gather gd tbl (wrapIdx h0 hcol src) := by
  refine IndexWrap.select_of_ones _ _ _ (fun i => ?_)
  obtain ⟨e, k, rfl⟩ : ∃ e k, i = ix2 e k := ⟨i 0, i 1, eq_ix2 i⟩
  -- the mask at (e, k) is the reduce at e
  rw [broadcastInDim_apply ![0] hm _ (ix2 e k) (ix1 e) (by intro a; match a with | ⟨0, _⟩ => rfl)]
  refine IndexWrap.reduce_andi_of_all _ _ hred hu (fun _ => rfl) (fun j => ?_) (ix1 e)
  obtain ⟨e', z, rfl⟩ : ∃ e' z, j = ix2 e' z := ⟨j 0, j 1, eq_ix2 j⟩
  -- the wrapped id at (e', z) is the wrap of the id at e'
  have hw : wrapIdx h0 hcol src (ix2 e' z) = IndexWrap.wrapWord (BitVec.ofNat 32 100000) (src (ix1 e')) := by
    unfold wrapIdx
    rw [broadcastInDim_apply ![0] hcol _ (ix2 e' z) (ix1 e') (by intro a; match a with | ⟨0, _⟩ => rfl)]
    show Scalar.select (IntOp.cmpi .slt (src (ix1 e')) (broadcastInDim SE ![] h0 (constantI S_ 32 0#32) (ix1 e')))
        (IntOp.addi (src (ix1 e')) (broadcastInDim SE ![] h0 (constantI S_ 32 100000#32) (ix1 e'))) (src (ix1 e')) = _
    rw [StableHlo.Predicate.bcast_scalar h0 hu, StableHlo.Predicate.bcast_scalar h0 hu]
    rfl
  -- the two bounds read at an index
  have hb0 : broadcastInDim SEx1 ![] hz (constantI S_ 32 0#32) (ix2 e' z) = 0#32 := by
    rw [StableHlo.Predicate.bcast_scalar hz hu]; rfl
  have hb1 : broadcastInDim SEx1 ![0, 1] hh2 (broadcastInDim S1x1 ![1] hh1 (constantI S1 32 99999#32)) (ix2 e' z) = 99999#32 := by
    rw [broadcastInDim_apply ![0, 1] hh2 _ (ix2 e' z) (ix2 0 0) (by intro a; match a with | ⟨0, _⟩ => rfl | ⟨1, _⟩ => rfl)]
    rfl
  show IntOp.andi (IntOp.cmpi .sge (wrapIdx h0 hcol src (ix2 e' z)) (broadcastInDim SEx1 ![] hz (constantI S_ 32 0#32) (ix2 e' z)))
      (IntOp.cmpi .sle (wrapIdx h0 hcol src (ix2 e' z))
        (broadcastInDim SEx1 ![0, 1] hh2 (broadcastInDim S1x1 ![1] hh1 (constantI S1 32 99999#32)) (ix2 e' z))) = 1#1
  rw [hw, hb0, hb1]
  exact IndexWrap.rangeTest_wrap 100000 (by norm_num) (by norm_num) 99999#32 (by decide) (src (ix1 e')) (hsrc (ix1 e')).1 (hsrc (ix1 e')).2

end Cert.TakeFill

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.HostStretches.lean ====
/-
  The kernel program's host stretches, each read over ANY buffer contents it may start from: the two id vectors
  sliced out of the index pair; jnp.take in fill mode (the gather where the wrapped id passes its range test, a
  not-a-number word elsewhere) — and, under in-range ids, the plain gather —; the scatter-add into zeros; the pooled
  head; and, for each stretch, that a buffer it does not write keeps its contents.
-/
import proofs.«421098_j10737418240833_1_alg».proof.Proof.Gen.KernelIdeal.Launch
import proofs.«421098_j10737418240833_1_alg».proof.Proof.KernelSig
import proofs.«421098_j10737418240833_1_alg».proof.Proof.TakeFill
import proofs.«421098_j10737418240833_1_alg».proof.Proof.LibTRef
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch

open Cert.KernelIdeal Cert.KernelIdeal.Gen Cert.KernelIdeal.Chain

/-- The source ids wrapped the NumPy way, as a one-column index table. -/
def colOf (src : IVec S1600000 32) : IVec S1600000x1 32 :=
  broadcastInDim S1600000x1 ![0] Facts₀.bcast_S1600000_S1600000x1_0
    (select (cmpi .slt src (broadcastInDim S1600000 ![] Facts₀.bcast_S_S1600000 (constantI S_ 32 0#32)))
      (addi src (broadcastInDim S1600000 ![] Facts₀.bcast_S_S1600000 (constantI S_ 32 100000#32))) src)

/-- jnp.take in fill mode: the gather where the wrapped id passes the range test, a not-a-number word elsewhere. -/
def takeTerm (h : FVec Ideal S100000x128 .f32) (src : IVec S1600000 32) : FVec Ideal S1600000x128 .f32 :=
  select
    (broadcastInDim S1600000x128 ![0] Facts₀.bcast_S1600000_S1600000x128_0
      (Host.reduce IntOp.andi
        (andi (cmpi .sge (colOf src) (broadcastInDim S1600000x1 ![] Facts₀.bcast_S_S1600000x1 (constantI S_ 32 0#32)))
          (cmpi .sle (colOf src)
            (broadcastInDim S1600000x1 ![0, 1] Facts₀.bcast_S1x1_S1600000x1_0_1 (broadcastInDim S1x1 ![1] Facts₀.bcast_S1_S1x1_1 (constantI S1 32 99999#32)))))
        (constantI S_ 1 1#1) Facts₀.reducesTo_S1600000x1_S1600000_d1 Facts₀.h_S_))
    (Host.gather gather_S100000x128_S1600000x1_S1600000x128_1_0_n_n_0_1_1128 h (colOf src))
    (broadcastInDim S1600000x128 ![] Facts₀.bcast_S_S1600000x128 (constant S_ .f32 0x7FC00000#32))

/-- Over ids in range the fill never happens: the take is the plain gather at the wrapped ids. -/
theorem takeTerm_eq (h : FVec Ideal S100000x128 .f32) (src : IVec S1600000 32)
    (hsrc : ∀ e : S1600000.Idx, -100000 ≤ (src e).toInt ∧ (src e).toInt < 100000) :
    takeTerm h src = Host.gather gather_S100000x128_S1600000x1_S1600000x128_1_0_n_n_0_1_1128 h (colOf src) :=
  Cert.TakeFill.take_fill (F := Ideal) gather_S100000x128_S1600000x1_S1600000x128_1_0_n_n_0_1_1128 Facts₀.bcast_S_S1600000 Facts₀.bcast_S1600000_S1600000x1_0
    Facts₀.bcast_S_S1600000x1 Facts₀.bcast_S1_S1x1_1 Facts₀.bcast_S1x1_S1600000x1_0_1 Facts₀.reducesTo_S1600000x1_S1600000_d1 Facts₀.h_S_
    Facts₀.bcast_S1600000_S1600000x128_0 Facts₀.bcast_S_S1600000x128 h src hsrc

/-- The wrapped id column of the network's own source ids. -/
theorem colOf_srcIds (ei : IVec S2x1600000 32) : colOf (Cert.Gin.srcIds netSig ei) = Cert.Gin.srcCol netSig ei := rfl

theorem ofBuf_main_v1 (h1 h2 h3) (v : main_v1.ty.Contents (Elt Ideal)) :
    (TRef.of main_v1 h1 h2 h3 : TRef sig ⟨S1600000, .i32⟩).ofBuf v = v := rfl

theorem toBuf_main_v4 (h1 h2 h3) (v : (⟨S1600000x128, .f32⟩ : BufTy).Contents (Elt Ideal)) :
    (TRef.of main_v4 h1 h2 h3 : TRef sig ⟨S1600000x128, .f32⟩).toBuf v = v := rfl
theorem ofBuf_main_arg0 (h1 h2 h3) (v : main_arg0.ty.Contents (Elt Ideal)) :
    (TRef.of main_arg0 h1 h2 h3 : TRef sig ⟨S100000x128, .f32⟩).ofBuf v = v := rfl

/-- The first gather stretch over any contents: the fill-mode take of the rows of `main_arg0` at the ids `main_v1`. -/
theorem take0 (V : Valuation τ sig (Elt Ideal)) :
    StableHlo.after hostOps0_1 V (Proc.devRef .tc main_v4) = takeTerm (V (Proc.devRef .tc main_arg0)) (V (Proc.devRef .tc main_v1)) := by
  after_results_simp
  simp only [TRef.ofBuf_toBuf, TRef.toBuf_ofBuf, toBuf_main_v4, ofBuf_main_v1, ofBuf_main_arg0]
  rfl

theorem toBuf_main_v9 (h1 h2 h3) (v : (⟨S1600000x128, .f32⟩ : BufTy).Contents (Elt Ideal)) :
    (TRef.of main_v9 h1 h2 h3 : TRef sig ⟨S1600000x128, .f32⟩).toBuf v = v := rfl
theorem ofBuf_main_v8 (h1 h2 h3) (v : main_v8.ty.Contents (Elt Ideal)) :
    (TRef.of main_v8 h1 h2 h3 : TRef sig ⟨S100000x128, .f32⟩).ofBuf v = v := rfl

/-- The second gather stretch over any contents: the fill-mode take of the rows of `main_v8` at the ids `main_v1`. -/
theorem take1 (V : Valuation τ sig (Elt Ideal)) :
    StableHlo.after hostOps1 V (Proc.devRef .tc main_v9) = takeTerm (V (Proc.devRef .tc main_v8)) (V (Proc.devRef .tc main_v1)) := by
  after_results_simp
  simp only [TRef.ofBuf_toBuf, TRef.toBuf_ofBuf, toBuf_main_v9, ofBuf_main_v1, ofBuf_main_v8]
  rfl

theorem toBuf_main_v14 (h1 h2 h3) (v : (⟨S1600000x128, .f32⟩ : BufTy).Contents (Elt Ideal)) :
    (TRef.of main_v14 h1 h2 h3 : TRef sig ⟨S1600000x128, .f32⟩).toBuf v = v := rfl
theorem ofBuf_main_v13 (h1 h2 h3) (v : main_v13.ty.Contents (Elt Ideal)) :
    (TRef.of main_v13 h1 h2 h3 : TRef sig ⟨S100000x128, .f32⟩).ofBuf v = v := rfl

/-- The third gather stretch over any contents: the fill-mode take of the rows of `main_v13` at the ids `main_v1`. -/
theorem take2 (V : Valuation τ sig (Elt Ideal)) :
    StableHlo.after hostOps2 V (Proc.devRef .tc main_v14) = takeTerm (V (Proc.devRef .tc main_v13)) (V (Proc.devRef .tc main_v1)) := by
  after_results_simp
  simp only [TRef.ofBuf_toBuf, TRef.toBuf_ofBuf, toBuf_main_v14, ofBuf_main_v1, ofBuf_main_v13]
  rfl

/-- The first scatter stretch over any contents: the rows `main_v4` summed into zeros at the ids `main_v3`. -/
theorem scat0 (V : Valuation τ sig (Elt Ideal)) :
    StableHlo.after hostOps0_2 V (Proc.devRef .tc main_v7)
      = Host.scatterAdd (F := Ideal) scatter_S100000x128_S1600000x1_S1600000x128_1_0_0_1
          (broadcastInDim S100000x128 ![] Facts₀.bcast_S_S100000x128 (constant S_ .f32 0x00000000#32))
          (broadcastInDim S1600000x1 ![0] Facts₀.bcast_S1600000_S1600000x1_0 (V (Proc.devRef .tc main_v3)))
          (V (Proc.devRef .tc main_v4)) := by
  after_results_simp

/-- The second scatter stretch over any contents: the rows `main_v9` summed into zeros at the ids `main_v3`. -/
theorem scat1 (V : Valuation τ sig (Elt Ideal)) :
    StableHlo.after hostOps1_1 V (Proc.devRef .tc main_v12)
      = Host.scatterAdd (F := Ideal) scatter_S100000x128_S1600000x1_S1600000x128_1_0_0_1
          (broadcastInDim S100000x128 ![] Facts₀.bcast_S_S100000x128 (constant S_ .f32 0x00000000#32))
          (broadcastInDim S1600000x1 ![0] Facts₀.bcast_S1600000_S1600000x1_0 (V (Proc.devRef .tc main_v3)))
          (V (Proc.devRef .tc main_v9)) := by
  after_results_simp

/-- The third scatter stretch over any contents: the rows `main_v14` summed into zeros at the ids `main_v3`. -/
theorem scat2 (V : Valuation τ sig (Elt Ideal)) :
    StableHlo.after hostOps2_1 V (Proc.devRef .tc main_v17)
      = Host.scatterAdd (F := Ideal) scatter_S100000x128_S1600000x1_S1600000x128_1_0_0_1
          (broadcastInDim S100000x128 ![] Facts₀.bcast_S_S100000x128 (constant S_ .f32 0x00000000#32))
          (broadcastInDim S1600000x1 ![0] Facts₀.bcast_S1600000_S1600000x1_0 (V (Proc.devRef .tc main_v3)))
          (V (Proc.devRef .tc main_v14)) := by
  after_results_simp

/-- The first stretch over any contents: the two rows of the index pair as id vectors. -/
theorem ids_src (V : Valuation τ sig (Elt Ideal)) :
    StableHlo.after hostOps0 V (Proc.devRef .tc main_v1) = Cert.Gin.srcIds netSig (V (Proc.devRef .tc main_arg1)) := by
  after_results_simp
  rfl
theorem ids_dst (V : Valuation τ sig (Elt Ideal)) :
    StableHlo.after hostOps0 V (Proc.devRef .tc main_v3) = Cert.Gin.dstIds netSig (V (Proc.devRef .tc main_arg1)) := by
  after_results_simp
  rfl

/-- The last stretch over any contents: the rows pooled by graph id and the closing linear map. -/
theorem head (V : Valuation τ sig (Elt Ideal)) :
    StableHlo.after hostOps3 V (Proc.devRef .tc main_v25)
      = Cert.Gin.head netSig (V (Proc.devRef .tc main_arg2)) (V (Proc.devRef .tc main_v18)) (V (Proc.devRef .tc main_arg15)) (V (Proc.devRef .tc main_arg16)) := by
  after_results_simp
  rfl

/-- The buffers the first stretch writes. -/
abbrev hostOps0_W : List (Ref sig .tc) := [main_v0, main_v1, main_v2, main_v3]
theorem hostOps0_writes : (hostOps0 : List (HloOp τ sig (Elt Ideal))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the first stretch does not write keeps its contents. -/
theorem hostOps0_keep (V : Valuation τ sig (Elt Ideal)) (r : Ref sig .tc) (h : r ∉ hostOps0_W) :
    StableHlo.after hostOps0 V (Proc.devRef .tc r) = V (Proc.devRef .tc r) :=
  StableHlo.after_of_writes_sub hostOps0 V hostOps0_writes h

/-- The buffers the first gather stretch writes. -/
abbrev hostOps0_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem hostOps0_1_writes : (hostOps0_1 : List (HloOp τ sig (Elt Ideal))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the first gather stretch does not write keeps its contents. -/
theorem hostOps0_1_keep (V : Valuation τ sig (Elt Ideal)) (r : Ref sig .tc) (h : r ∉ hostOps0_1_W) :
    StableHlo.after hostOps0_1 V (Proc.devRef .tc r) = V (Proc.devRef .tc r) :=
  StableHlo.after_of_writes_sub hostOps0_1 V hostOps0_1_writes h

/-- The buffers the first scatter stretch writes. -/
abbrev hostOps0_2_W : List (Ref sig .tc) := [main_cst, main_v5, main_v6, main_v7]
theorem hostOps0_2_writes : (hostOps0_2 : List (HloOp τ sig (Elt Ideal))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the first scatter stretch does not write keeps its contents. -/
theorem hostOps0_2_keep (V : Valuation τ sig (Elt Ideal)) (r : Ref sig .tc) (h : r ∉ hostOps0_2_W) :
    StableHlo.after hostOps0_2 V (Proc.devRef .tc r) = V (Proc.devRef .tc r) :=
  StableHlo.after_of_writes_sub hostOps0_2 V hostOps0_2_writes h

/-- The buffers the second gather stretch writes. -/
abbrev hostOps1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v9]
theorem hostOps1_writes : (hostOps1 : List (HloOp τ sig (Elt Ideal))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the second gather stretch does not write keeps its contents. -/
theorem hostOps1_keep (V : Valuation τ sig (Elt Ideal)) (r : Ref sig .tc) (h : r ∉ hostOps1_W) :
    StableHlo.after hostOps1 V (Proc.devRef .tc r) = V (Proc.devRef .tc r) :=
  StableHlo.after_of_writes_sub hostOps1 V hostOps1_writes h

/-- The buffers the second scatter stretch writes. -/
abbrev hostOps1_1_W : List (Ref sig .tc) := [main_cst_0, main_v10, main_v11, main_v12]
theorem hostOps1_1_writes : (hostOps1_1 : List (HloOp τ sig (Elt Ideal))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the second scatter stretch does not write keeps its contents. -/
theorem hostOps1_1_keep (V : Valuation τ sig (Elt Ideal)) (r : Ref sig .tc) (h : r ∉ hostOps1_1_W) :
    StableHlo.after hostOps1_1 V (Proc.devRef .tc r) = V (Proc.devRef .tc r) :=
  StableHlo.after_of_writes_sub hostOps1_1 V hostOps1_1_writes h

/-- The buffers the third gather stretch writes. -/
abbrev hostOps2_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v14]
theorem hostOps2_writes : (hostOps2 : List (HloOp τ sig (Elt Ideal))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the third gather stretch does not write keeps its contents. -/
theorem hostOps2_keep (V : Valuation τ sig (Elt Ideal)) (r : Ref sig .tc) (h : r ∉ hostOps2_W) :
    StableHlo.after hostOps2 V (Proc.devRef .tc r) = V (Proc.devRef .tc r) :=
  StableHlo.after_of_writes_sub hostOps2 V hostOps2_writes h

/-- The buffers the third scatter stretch writes. -/
abbrev hostOps2_1_W : List (Ref sig .tc) := [main_cst_1, main_v15, main_v16, main_v17]
theorem hostOps2_1_writes : (hostOps2_1 : List (HloOp τ sig (Elt Ideal))).Forall fun op => op.writes ⊆ (hostOps2_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the third scatter stretch does not write keeps its contents. -/
theorem hostOps2_1_keep (V : Valuation τ sig (Elt Ideal)) (r : Ref sig .tc) (h : r ∉ hostOps2_1_W) :
    StableHlo.after hostOps2_1 V (Proc.devRef .tc r) = V (Proc.devRef .tc r) :=
  StableHlo.after_of_writes_sub hostOps2_1 V hostOps2_1_writes h

end Cert.KernelIdeal.Stretch

end
-- ==== Proof.KernelChain.lean ====
/-
  The kernel program's result buffer, read back through its run: the last boundary's contents at the result are the
  pooled head of the third pallas_call's output array; each pallas_call's output array is the perceptron of
  h + agg h at the arrays its region finds; and those arrays are the host stretch's gather / scatter-add of the
  previous layer's output. Under in-range source ids the gather's fill mode never fills, so every layer is the
  network's layer and the result is the network of the launch contents of the arguments.
-/
import proofs.«421098_j10737418240833_1_alg».proof.Proof.Gen.KernelIdeal.Frame
import proofs.«421098_j10737418240833_1_alg».proof.Proof.RegionValue0
import proofs.«421098_j10737418240833_1_alg».proof.Proof.RegionValue1
import proofs.«421098_j10737418240833_1_alg».proof.Proof.RegionValue2
import proofs.«421098_j10737418240833_1_alg».proof.Proof.HostStretches
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.Facts₀ Cert.KernelIdeal.Facts

variable (m : (ℓ : Loc nD τ sig) → Buf (Elt Ideal) ℓ) (ρ : Dev nD → PrngReg)

/-! ## The boundaries' contents at the buffers no later stretch or region writes -/

theorem W0_eq (c : Dev nD) (b : Ref sig .tc) : W0 m ρ c (Proc.devRef .tc b) = m ((c.tc : Thread nD τ).loc b) := rfl

theorem W1_of (c : Dev nD) (r : Ref sig .tc) (h : r ∉ Stretch.hostOps0_W) : W1 m ρ c (Proc.devRef .tc r) = W0 m ρ c (Proc.devRef .tc r) :=
  Stretch.hostOps0_keep (W0 m ρ c) r h
theorem W2_of (c : Dev nD) (r : Ref sig .tc) (h : r ∉ Stretch.hostOps0_1_W) : W2 m ρ c (Proc.devRef .tc r) = W1 m ρ c (Proc.devRef .tc r) :=
  Stretch.hostOps0_1_keep (W1 m ρ c) r h
theorem W3_of (c : Dev nD) (r : Ref sig .tc) (h : r ∉ Stretch.hostOps0_2_W) : W3 m ρ c (Proc.devRef .tc r) = W2 m ρ c (Proc.devRef .tc r) :=
  Stretch.hostOps0_2_keep (W2 m ρ c) r h
theorem W5_of (c : Dev nD) (r : Ref sig .tc) (h : r ∉ Stretch.hostOps1_W) : W5 m ρ c (Proc.devRef .tc r) = W4 m ρ c (Proc.devRef .tc r) :=
  Stretch.hostOps1_keep (W4 m ρ c) r h
theorem W6_of (c : Dev nD) (r : Ref sig .tc) (h : r ∉ Stretch.hostOps1_1_W) : W6 m ρ c (Proc.devRef .tc r) = W5 m ρ c (Proc.devRef .tc r) :=
  Stretch.hostOps1_1_keep (W5 m ρ c) r h
theorem W8_of (c : Dev nD) (r : Ref sig .tc) (h : r ∉ Stretch.hostOps2_W) : W8 m ρ c (Proc.devRef .tc r) = W7 m ρ c (Proc.devRef .tc r) :=
  Stretch.hostOps2_keep (W7 m ρ c) r h
theorem W9_of (c : Dev nD) (r : Ref sig .tc) (h : r ∉ Stretch.hostOps2_1_W) : W9 m ρ c (Proc.devRef .tc r) = W8 m ρ c (Proc.devRef .tc r) :=
  Stretch.hostOps2_1_keep (W8 m ρ c) r h

/-- The two id vectors, from the first stretch on. -/
theorem W1_src (c : Dev nD) : W1 m ρ c (Proc.devRef .tc main_v1) = Cert.Gin.srcIds netSig (m ((c.tc : Thread nD τ).loc main_arg1)) :=
  Stretch.ids_src (W0 m ρ c)
theorem W1_dst (c : Dev nD) : W1 m ρ c (Proc.devRef .tc main_v3) = Cert.Gin.dstIds netSig (m ((c.tc : Thread nD τ).loc main_arg1)) :=
  Stretch.ids_dst (W0 m ρ c)

/-- An argument array no stretch writes is as launched at the first region's entry. -/
theorem W3_arg (c : Dev nD) (r : Ref sig .tc) (h1 : r ∉ Stretch.hostOps0_W) (h2 : r ∉ Stretch.hostOps0_1_W) (h3 : r ∉ Stretch.hostOps0_2_W) :
    W3 m ρ c (Proc.devRef .tc r) = m ((c.tc : Thread nD τ).loc r) :=
  (W3_of m ρ c r h3).trans ((W2_of m ρ c r h2).trans (W1_of m ρ c r h1))
/-- … and at the second region's entry, when the first region's windows leave it alone. -/
theorem W6_arg (c : Dev nD) (r : Ref sig .tc) (h1 : r ∉ Stretch.hostOps0_W) (h2 : r ∉ Stretch.hostOps0_1_W) (h3 : r ∉ Stretch.hostOps0_2_W)
    (h4 : ∀ w, Pipeline.arrRef spec0 w ≠ r) (h5 : r ∉ Stretch.hostOps1_W) (h6 : r ∉ Stretch.hostOps1_1_W) :
    W6 m ρ c (Proc.devRef .tc r) = m ((c.tc : Thread nD τ).loc r) :=
  (W6_of m ρ c r h6).trans ((W5_of m ρ c r h5).trans ((W4_of_ne m ρ c r h4).trans (W3_arg m ρ c r h1 h2 h3)))
/-- … and at the third region's entry. -/
theorem W9_arg (c : Dev nD) (r : Ref sig .tc) (h1 : r ∉ Stretch.hostOps0_W) (h2 : r ∉ Stretch.hostOps0_1_W) (h3 : r ∉ Stretch.hostOps0_2_W)
    (h4 : ∀ w, Pipeline.arrRef spec0 w ≠ r) (h5 : r ∉ Stretch.hostOps1_W) (h6 : r ∉ Stretch.hostOps1_1_W)
    (h7 : ∀ w, Pipeline.arrRef spec1 w ≠ r) (h8 : r ∉ Stretch.hostOps2_W) (h9 : r ∉ Stretch.hostOps2_1_W) :
    W9 m ρ c (Proc.devRef .tc r) = m ((c.tc : Thread nD τ).loc r) :=
  (W9_of m ρ c r h9).trans ((W8_of m ρ c r h8).trans ((W7_of_ne m ρ c r h7).trans (W6_arg m ρ c r h1 h2 h3 h4 h5 h6)))
/-- … and after the third region. -/
theorem W10_arg (c : Dev nD) (r : Ref sig .tc) (h1 : r ∉ Stretch.hostOps0_W) (h2 : r ∉ Stretch.hostOps0_1_W) (h3 : r ∉ Stretch.hostOps0_2_W)
    (h4 : ∀ w, Pipeline.arrRef spec0 w ≠ r) (h5 : r ∉ Stretch.hostOps1_W) (h6 : r ∉ Stretch.hostOps1_1_W)
    (h7 : ∀ w, Pipeline.arrRef spec1 w ≠ r) (h8 : r ∉ Stretch.hostOps2_W) (h9 : r ∉ Stretch.hostOps2_1_W)
    (h10 : ∀ w, Pipeline.arrRef spec2 w ≠ r) :
    W10 m ρ c (Proc.devRef .tc r) = m ((c.tc : Thread nD τ).loc r) :=
  (W10_of_ne m ρ c r h10).trans (W9_arg m ρ c r h1 h2 h3 h4 h5 h6 h7 h8 h9)

/-- The id vectors at the boundaries that read them. -/
theorem W2_dst (c : Dev nD) : W2 m ρ c (Proc.devRef .tc main_v3) = Cert.Gin.dstIds netSig (m ((c.tc : Thread nD τ).loc main_arg1)) :=
  (W2_of m ρ c main_v3 (by decide)).trans (W1_dst m ρ c)
theorem W4_src (c : Dev nD) : W4 m ρ c (Proc.devRef .tc main_v1) = Cert.Gin.srcIds netSig (m ((c.tc : Thread nD τ).loc main_arg1)) :=
  (W4_of_ne m ρ c main_v1 (by decide)).trans ((W3_of m ρ c main_v1 (by decide)).trans ((W2_of m ρ c main_v1 (by decide)).trans (W1_src m ρ c)))
theorem W5_dst (c : Dev nD) : W5 m ρ c (Proc.devRef .tc main_v3) = Cert.Gin.dstIds netSig (m ((c.tc : Thread nD τ).loc main_arg1)) :=
  (W5_of m ρ c main_v3 (by decide)).trans ((W4_of_ne m ρ c main_v3 (by decide)).trans ((W3_of m ρ c main_v3 (by decide)).trans (W2_dst m ρ c)))
theorem W7_src (c : Dev nD) : W7 m ρ c (Proc.devRef .tc main_v1) = Cert.Gin.srcIds netSig (m ((c.tc : Thread nD τ).loc main_arg1)) :=
  (W7_of_ne m ρ c main_v1 (by decide)).trans ((W6_of m ρ c main_v1 (by decide)).trans ((W5_of m ρ c main_v1 (by decide)).trans (W4_src m ρ c)))
theorem W8_dst (c : Dev nD) : W8 m ρ c (Proc.devRef .tc main_v3) = Cert.Gin.dstIds netSig (m ((c.tc : Thread nD τ).loc main_arg1)) :=
  (W8_of m ρ c main_v3 (by decide)).trans ((W7_of_ne m ρ c main_v3 (by decide)).trans ((W6_of m ρ c main_v3 (by decide)).trans (W5_dst m ρ c)))

/-! ## The layers -/

/-- The neighbour sum from a scatter stretch's operands: the id column of `dst` and the gathered rows. -/
theorem agg_of (ei : IVec S2x1600000 32) (h : FVec Ideal S100000x128 .f32) (d : IVec S1600000 32) (u : FVec Ideal S1600000x128 .f32)
    (hd : d = Cert.Gin.dstIds netSig ei) (hu : u = Stretch.takeTerm h (Cert.Gin.srcIds netSig ei))
    (hsrc : ∀ e : Cert.Gin.SE.Idx, -100000 ≤ (Cert.Gin.srcIds netSig ei e).toInt ∧ (Cert.Gin.srcIds netSig ei e).toInt < 100000) :
    Host.scatterAdd (F := Ideal) scatter_S100000x128_S1600000x1_S1600000x128_1_0_0_1
        (broadcastInDim S100000x128 ![] Facts₀.bcast_S_S100000x128 (constant S_ .f32 0x00000000#32))
        (broadcastInDim S1600000x1 ![0] Facts₀.bcast_S1600000_S1600000x1_0 d) u
      = Cert.Gin.agg netSig ei h := by
  rw [hd, hu, Stretch.takeTerm_eq h _ hsrc, Stretch.colOf_srcIds]
  rfl

section Layers
variable (c : Dev nD)

/-- The first pallas_call's output array: the network's first layer of the launch contents. -/
theorem out0 (hsrc : ∀ e : Cert.Gin.SE.Idx, -100000 ≤ (Cert.Gin.srcIds netSig (m ((c.tc : Thread nD τ).loc main_arg1)) e).toInt ∧ (Cert.Gin.srcIds netSig (m ((c.tc : Thread nD τ).loc main_arg1)) e).toInt < 100000) :
    W4 m ρ c (Proc.devRef .tc main_v8) = Cert.Gin.layer netSig true (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) := by
  refine (W4_arr m ρ c 6).trans ((Region0.value (V3 m ρ) c).trans ?_)
  show Cert.Gin.mlp true (addf (F := Ideal) (s := S100000x128) (φ := .f32) (W3 m ρ c (Proc.devRef .tc main_arg0)) (W3 m ρ c (Proc.devRef .tc main_v7)))
      (W3 m ρ c (Proc.devRef .tc main_arg3)) (Cert.Mlp.vec (W3 m ρ c (Proc.devRef .tc main_arg4))) (W3 m ρ c (Proc.devRef .tc main_arg5)) (Cert.Mlp.vec (W3 m ρ c (Proc.devRef .tc main_arg6))) = _
  rw [W3_arg m ρ c main_arg0 (by decide) (by decide) (by decide), W3_arg m ρ c main_arg3 (by decide) (by decide) (by decide), W3_arg m ρ c main_arg4 (by decide) (by decide) (by decide),
    W3_arg m ρ c main_arg5 (by decide) (by decide) (by decide), W3_arg m ρ c main_arg6 (by decide) (by decide) (by decide)]
  rw [show W3 m ρ c (Proc.devRef .tc main_v7) = Cert.Gin.agg netSig (m ((c.tc : Thread nD τ).loc main_arg1)) (m ((c.tc : Thread nD τ).loc main_arg0)) from
    (Stretch.scat0 (W2 m ρ c)).trans (agg_of _ _ _ _ (W2_dst m ρ c)
      ((Stretch.take0 (W1 m ρ c)).trans (by rw [W1_src, W1_of m ρ c main_arg0 (by decide), W0_eq])) hsrc)]
  rfl

/-- The second pallas_call's output array: the second layer of the first. -/
theorem out1 (hsrc : ∀ e : Cert.Gin.SE.Idx, -100000 ≤ (Cert.Gin.srcIds netSig (m ((c.tc : Thread nD τ).loc main_arg1)) e).toInt ∧ (Cert.Gin.srcIds netSig (m ((c.tc : Thread nD τ).loc main_arg1)) e).toInt < 100000) :
    W7 m ρ c (Proc.devRef .tc main_v13) = (Cert.Gin.layer netSig true (m ((c.tc : Thread nD τ).loc main_arg1)) (Cert.Gin.layer netSig true (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10))) := by
  refine (W7_arr m ρ c 6).trans ((Region1.value (V6 m ρ) c).trans ?_)
  show Cert.Gin.mlp true (addf (F := Ideal) (s := S100000x128) (φ := .f32) (W6 m ρ c (Proc.devRef .tc main_v8)) (W6 m ρ c (Proc.devRef .tc main_v12)))
      (W6 m ρ c (Proc.devRef .tc main_arg7)) (Cert.Mlp.vec (W6 m ρ c (Proc.devRef .tc main_arg8))) (W6 m ρ c (Proc.devRef .tc main_arg9)) (Cert.Mlp.vec (W6 m ρ c (Proc.devRef .tc main_arg10))) = _
  rw [W6_arg m ρ c main_arg7 (by decide) (by decide) (by decide) (by decide) (by decide) (by decide), W6_arg m ρ c main_arg8 (by decide) (by decide) (by decide) (by decide) (by decide) (by decide), W6_arg m ρ c main_arg9 (by decide) (by decide) (by decide) (by decide) (by decide) (by decide), W6_arg m ρ c main_arg10 (by decide) (by decide) (by decide) (by decide) (by decide) (by decide)]
  rw [show W6 m ρ c (Proc.devRef .tc main_v12) = Cert.Gin.agg netSig (m ((c.tc : Thread nD τ).loc main_arg1)) (Cert.Gin.layer netSig true (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) from
    (Stretch.scat1 (W5 m ρ c)).trans (agg_of _ _ _ _ (W5_dst m ρ c)
      ((Stretch.take1 (W4 m ρ c)).trans (by rw [W4_src, out0 m ρ c hsrc])) hsrc)]
  rw [show W6 m ρ c (Proc.devRef .tc main_v8) = (Cert.Gin.layer netSig true (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) from
    (W6_of m ρ c main_v8 (by decide)).trans ((W5_of m ρ c main_v8 (by decide)).trans (out0 m ρ c hsrc))]
  rfl

/-- The third pallas_call's output array: the third layer, without the closing rectifier, of the second. -/
theorem out2 (hsrc : ∀ e : Cert.Gin.SE.Idx, -100000 ≤ (Cert.Gin.srcIds netSig (m ((c.tc : Thread nD τ).loc main_arg1)) e).toInt ∧ (Cert.Gin.srcIds netSig (m ((c.tc : Thread nD τ).loc main_arg1)) e).toInt < 100000) :
    W10 m ρ c (Proc.devRef .tc main_v18) = (Cert.Gin.layer netSig false (m ((c.tc : Thread nD τ).loc main_arg1)) (Cert.Gin.layer netSig true (m ((c.tc : Thread nD τ).loc main_arg1)) (Cert.Gin.layer netSig true (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg12)) (m ((c.tc : Thread nD τ).loc main_arg13)) (m ((c.tc : Thread nD τ).loc main_arg14))) := by
  refine (W10_arr m ρ c 6).trans ((Region2.value (V9 m ρ) c).trans ?_)
  show Cert.Gin.mlp false (addf (F := Ideal) (s := S100000x128) (φ := .f32) (W9 m ρ c (Proc.devRef .tc main_v13)) (W9 m ρ c (Proc.devRef .tc main_v17)))
      (W9 m ρ c (Proc.devRef .tc main_arg11)) (Cert.Mlp.vec (W9 m ρ c (Proc.devRef .tc main_arg12))) (W9 m ρ c (Proc.devRef .tc main_arg13)) (Cert.Mlp.vec (W9 m ρ c (Proc.devRef .tc main_arg14))) = _
  rw [W9_arg m ρ c main_arg11 (by decide) (by decide) (by decide) (by decide) (by decide) (by decide) (by decide) (by decide) (by decide), W9_arg m ρ c main_arg12 (by decide) (by decide) (by decide) (by decide) (by decide) (by decide) (by decide) (by decide) (by decide), W9_arg m ρ c main_arg13 (by decide) (by decide) (by decide) (by decide) (by decide) (by decide) (by decide) (by decide) (by decide), W9_arg m ρ c main_arg14 (by decide) (by decide) (by decide) (by decide) (by decide) (by decide) (by decide) (by decide) (by decide)]
  rw [show W9 m ρ c (Proc.devRef .tc main_v17) = Cert.Gin.agg netSig (m ((c.tc : Thread nD τ).loc main_arg1)) (Cert.Gin.layer netSig true (m ((c.tc : Thread nD τ).loc main_arg1)) (Cert.Gin.layer netSig true (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10))) from
    (Stretch.scat2 (W8 m ρ c)).trans (agg_of _ _ _ _ (W8_dst m ρ c)
      ((Stretch.take2 (W7 m ρ c)).trans (by rw [W7_src, out1 m ρ c hsrc])) hsrc)]
  rw [show W9 m ρ c (Proc.devRef .tc main_v13) = (Cert.Gin.layer netSig true (m ((c.tc : Thread nD τ).loc main_arg1)) (Cert.Gin.layer netSig true (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10))) from
    (W9_of m ρ c main_v13 (by decide)).trans ((W8_of m ρ c main_v13 (by decide)).trans (out1 m ρ c hsrc))]
  rfl

end Layers

/-- The result buffer at the last boundary is the network of the launch contents, when every source id is in range. -/
theorem result
    (hsrc : ∀ (c : Dev nD) (e : Cert.Gin.SE.Idx),
      -100000 ≤ (Cert.Gin.srcIds netSig (m ((c.tc : Thread nD τ).loc main_arg1)) e).toInt
        ∧ (Cert.Gin.srcIds netSig (m ((c.tc : Thread nD τ).loc main_arg1)) e).toInt < 100000)
    (c : Dev nD) :
    W11 m ρ c (Proc.devRef .tc main_v25)
      = Cert.Gin.net netSig (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) := by
  refine (Stretch.head (W10 m ρ c)).trans ?_
  rw [W10_arg m ρ c main_arg2 (by decide) (by decide) (by decide) (by decide) (by decide) (by decide) (by decide) (by decide) (by decide) (by decide), W10_arg m ρ c main_arg15 (by decide) (by decide) (by decide) (by decide) (by decide) (by decide) (by decide) (by decide) (by decide) (by decide), W10_arg m ρ c main_arg16 (by decide) (by decide) (by decide) (by decide) (by decide) (by decide) (by decide) (by decide) (by decide) (by decide), out2 m ρ c (hsrc c)]
  rfl

end Cert.KernelIdeal.Chain

end
-- ==== Proof.RefNet.lean ====
/-
  The reference program's result, read: its composed term of the arguments is the network function — each layer's
  host operations (dot_general, bias broadcast in two steps, rectifier against a broadcast zero) are the perceptron of
  h + agg h, the gather and the scatter-adds are the network's own.
-/
import proofs.«421098_j10737418240833_1_alg».proof.Proof.Gen.ReferenceIdeal.Run
import proofs.«421098_j10737418240833_1_alg».proof.Proof.GinNet

set_option maxRecDepth 16384

noncomputable section

open Idealize.ShloMosaic Idealize.ShloMosaic.TcCoe Idealize.SL.Sem

namespace Cert.ReferenceIdeal.Net

open Cert.ReferenceIdeal Cert.ReferenceIdeal.Facts₀ Cert.ReferenceIdeal.Facts

/-- The reference's own records and stated shape relations, as the network's parameters. -/
def netSig : Cert.Gin.Sig where
  gd := gather_S100000x128_S1600000x1_S1600000x128_1_0_n_n_0_1_1128
  sd := scatter_S100000x128_S1600000x1_S1600000x128_1_0_0_1
  sdp := scatter_S512x128_S100000x1_S100000x128_1_0_0_1
  dp := dot_S512x128_S128x10_S512x10_1_0_0_1_n_n
  slice0 := slices_S2x1600000_S1x1600000_0_0
  slice1 := slices_S2x1600000_S1x1600000_1_0
  cast := shapeCasts_S1x1600000_S1600000
  b0E := bcast_S_S1600000
  bcol := bcast_S1600000_S1600000x1_0
  b0N := bcast_S_S100000x128
  b0G := bcast_S_S512x128
  bNcol := bcast_S100000_S100000x1_0
  bO1 := bcast_S10_S1x10_1
  bO2 := bcast_S1x10_S512x10_0_1

/-- The reference's product contracts the left operand's columns against the right operand's rows. -/
theorem dotN_plain : dot_S100000x128_S128x128_S100000x128_1_0_0_1_n_n = DotDims.plain 100000 128 128 := rfl

/-- The reference's gather of the wrapped source rows, scatter-added at the destination rows, is the network's neighbour sum. -/
theorem agg_eq (ei : IVec S2x1600000 32) (h : FVec Ideal S100000x128 .f32) :
    (Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 (shapeCast S1600000 (extractStridedSlice S1x1600000 ![1, 0] ei slices_S2x1600000_S1x1600000_1_0) shapeCasts_S1x1600000_S1600000))
        (Host.gather gather_S100000x128_S1600000x1_S1600000x128_1_0_n_n_0_1_1128 h
          (broadcastInDim S1600000x1 ![0] bcast_S1600000_S1600000x1_0
            (select (cmpi .slt (shapeCast S1600000 (extractStridedSlice S1x1600000 ![0, 0] ei slices_S2x1600000_S1x1600000_0_0) shapeCasts_S1x1600000_S1600000) (broadcastInDim S1600000 ![] bcast_S_S1600000 (constantI S_ 32 0#32)))
              (addi (shapeCast S1600000 (extractStridedSlice S1x1600000 ![0, 0] ei slices_S2x1600000_S1x1600000_0_0) shapeCasts_S1x1600000_S1600000) (broadcastInDim S1600000 ![] bcast_S_S1600000 (constantI S_ 32 100000#32)))
              (shapeCast S1600000 (extractStridedSlice S1x1600000 ![0, 0] ei slices_S2x1600000_S1x1600000_0_0) shapeCasts_S1x1600000_S1600000)))))
      = Cert.Gin.agg netSig ei h := rfl

/-- One layer of the reference without the closing rectifier, over any input, is the network's layer. -/
theorem layer_eq (ei : IVec S2x1600000 32) (h : FVec Ideal S100000x128 .f32) (w1 : FVec Ideal S128x128 .f32) (b1 : FVec Ideal S128 .f32)
    (w2 : FVec Ideal S128x128 .f32) (b2 : FVec Ideal S128 .f32) :
    addf (Host.dotGeneral dot_S100000x128_S128x128_S100000x128_1_0_0_1_n_n none
        (maximumf (addf (Host.dotGeneral dot_S100000x128_S128x128_S100000x128_1_0_0_1_n_n none
              (addf h (Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 (shapeCast S1600000 (extractStridedSlice S1x1600000 ![1, 0] ei slices_S2x1600000_S1x1600000_1_0) shapeCasts_S1x1600000_S1600000))
        (Host.gather gather_S100000x128_S1600000x1_S1600000x128_1_0_n_n_0_1_1128 h
          (broadcastInDim S1600000x1 ![0] bcast_S1600000_S1600000x1_0
            (select (cmpi .slt (shapeCast S1600000 (extractStridedSlice S1x1600000 ![0, 0] ei slices_S2x1600000_S1x1600000_0_0) shapeCasts_S1x1600000_S1600000) (broadcastInDim S1600000 ![] bcast_S_S1600000 (constantI S_ 32 0#32)))
              (addi (shapeCast S1600000 (extractStridedSlice S1x1600000 ![0, 0] ei slices_S2x1600000_S1x1600000_0_0) shapeCasts_S1x1600000_S1600000) (broadcastInDim S1600000 ![] bcast_S_S1600000 (constantI S_ 32 100000#32)))
              (shapeCast S1600000 (extractStridedSlice S1x1600000 ![0, 0] ei slices_S2x1600000_S1x1600000_0_0) shapeCasts_S1x1600000_S1600000)))))) w1)
            (broadcastInDim S100000x128 ![0, 1] bcast_S1x128_S100000x128_0_1 (broadcastInDim S1x128 ![1] bcast_S128_S1x128_1 b1)))
          (broadcastInDim S100000x128 ![] bcast_S_S100000x128 (constant S_ .f32 0x00000000#32))) w2)
      (broadcastInDim S100000x128 ![0, 1] bcast_S1x128_S100000x128_0_1 (broadcastInDim S1x128 ![1] bcast_S128_S1x128_1 b2))
      = Cert.Gin.layer netSig false ei h w1 b1 w2 b2 := by
  rw [agg_eq ei h, Cert.Gin.host_mlp _ dotN_plain _ dotN_plain]
  rfl

/-- The closing rectifier of a layer of the reference. -/
theorem act_eq (ei : IVec S2x1600000 32) (h : FVec Ideal S100000x128 .f32) (w1 : FVec Ideal S128x128 .f32) (b1 : FVec Ideal S128 .f32)
    (w2 : FVec Ideal S128x128 .f32) (b2 : FVec Ideal S128 .f32) :
    maximumf (F := Ideal) (φ := .f32) (Cert.Gin.layer netSig false ei h w1 b1 w2 b2) (broadcastInDim S100000x128 ![] bcast_S_S100000x128 (constant S_ .f32 0x00000000#32))
      = Cert.Gin.layer netSig true ei h w1 b1 w2 b2 :=
  Cert.Gin.host_mlp_act _ _ _ _ _ _

/-- The reference's result term is the network of the launch contents of its arguments. -/
theorem res_eq (m : (ℓ : Loc nD τ sig) → Buf (Elt Ideal) ℓ) (c : Dev nD) :
    Cert.ReferenceIdeal.Value.res_main_v77 (F := Ideal) m c
      = Cert.Gin.net netSig (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) := by
  unfold Cert.ReferenceIdeal.Value.res_main_v77
  rw [layer_eq, layer_eq, act_eq, layer_eq, act_eq]
  rfl

end Cert.ReferenceIdeal.Net

end
-- ==== Proof.SrcRange.lean ====
/-
  What the precondition says of the source node ids: the vector edge_index[0] (row 0 of the index pair, sliced and
  reshaped to rank one) has every entry in [-100000, 100000) as a signed word — read off the last two conjuncts of
  the printed predicate (two reduce-by-and of signed compares against broadcast constants).
-/
import proofs.«421098_j10737418240833_1_alg».proof.Pre_finite_inputs
import Idealize.ShloMosaic.Lib.ReduceAll
import Idealize.ShloMosaic.Lib.StableHlo.Predicate

noncomputable section

open Idealize.ShloMosaic

namespace Cert.Pre_finite_inputs.Range

open Cert.Pre_finite_inputs

variable [Facts]

/-- Row 0 of the index pair as a rank-one vector, in the predicate's own spelling (a slice, then a reshape). -/
abbrev srcOf (a1 : IVec S2x1600000 32) : IVec S1600000 32 :=
  shapeCast S1600000 (extractStridedSlice S1x1600000 ![0, 0] a1 Facts.slices_S2x1600000_S1x1600000_0_0) Facts.shapeCasts_S1x1600000_S1600000

/-- The rank-zero index type has one element. -/
instance : Subsingleton S_.Idx := ⟨fun a b => funext fun d => d.elim0⟩

theorem src_range {F : FTy → Type} [FloatOps F]
    (a0 : FVec F S100000x128 .f32) (a1 : IVec S2x1600000 32) (a2 : IVec S100000 32) (a3 : FVec F S128x128 .f32) (a4 : FVec F S128 .f32)
    (a5 : FVec F S128x128 .f32) (a6 : FVec F S128 .f32) (a7 : FVec F S128x128 .f32) (a8 : FVec F S128 .f32) (a9 : FVec F S128x128 .f32)
    (a10 : FVec F S128 .f32) (a11 : FVec F S128x128 .f32) (a12 : FVec F S128 .f32) (a13 : FVec F S128x128 .f32) (a14 : FVec F S128 .f32)
    (a15 : FVec F S128x10 .f32) (a16 : FVec F S10 .f32)
    (h : fn (F := F) a0 a1 a2 a3 a4 a5 a6 a7 a8 a9 a10 a11 a12 a13 a14 a15 a16 = fun _ => 1#1) :
    ∀ e : S1600000.Idx, -100000 ≤ (srcOf a1 e).toInt ∧ (srcOf a1 e).toInt < 100000 := by
  have h0 := congrFun h (fun a => a.elim0)
  dsimp only [fn, fn_part1, fn_part2, fn_part3, fn_part4] at h0
  -- the outer conjunction carries the upper-bound test, its left part's conjunction the lower-bound test
  obtain ⟨hl, hup⟩ := IntOp.andi_eq_one.1 h0
  obtain ⟨_, hlo⟩ := IntOp.andi_eq_one.1 hl
  intro e
  -- a reduce-by-and that is 1 had a 1 at every entry
  have hge := Host.reduce_andi_all _ _ _ _ _ hlo e
  have hlt := Host.reduce_andi_all _ _ _ _ _ hup e
  -- the two constants as signed integers
  have hwlo : (4294867296#32 : BitVec 32).toInt = -100000 := by decide
  have hwhi : (100000#32 : BitVec 32).toInt = 100000 := by decide
  have hge' : (4294867296#32 : BitVec 32).toInt ≤ (srcOf a1 e).toInt := by
    have := IntOp.cmpi_sge.1 hge
    rw [StableHlo.Predicate.bcast_scalar _ Facts.h_S_] at this
    exact this
  have hlt' : (srcOf a1 e).toInt < (100000#32 : BitVec 32).toInt := by
    have := IntOp.cmpi_slt.1 hlt
    rw [StableHlo.Predicate.bcast_scalar _ Facts.h_S_] at this
    exact this
  rw [hwlo] at hge'
  rw [hwhi] at hlt'
  exact ⟨hge', hlt'⟩

end Cert.Pre_finite_inputs.Range

end
-- ==== Proof.lean ====
/- The proof of `Cert.Claim`: three layers of gather at the source ids, scatter-add at the target ids and a two-layer
   perceptron (the perceptrons in three tiled kernels), then pooling by graph id and a linear map, against the same network on
   the host: on the extended reals both end at one function of the arguments when every source id is in [-100000, 100000). -/
import proofs.«421098_j10737418240833_1_alg».proof.Defs
import proofs.«421098_j10737418240833_1_alg».proof.Proof.Gen.Kernel
import proofs.«421098_j10737418240833_1_alg».proof.Proof.Gen.Kernel.Skeleton
import proofs.«421098_j10737418240833_1_alg».proof.Proof.Gen.Kernel.Launch
import proofs.«421098_j10737418240833_1_alg».proof.Proof.Gen.Kernel.Points
import proofs.«421098_j10737418240833_1_alg».proof.Proof.Gen.Kernel.Frame
import proofs.«421098_j10737418240833_1_alg».proof.Proof.Gen.KernelIdeal
import proofs.«421098_j10737418240833_1_alg».proof.Proof.Gen.KernelIdeal.Skeleton
import proofs.«421098_j10737418240833_1_alg».proof.Proof.Gen.KernelIdeal.Launch
import proofs.«421098_j10737418240833_1_alg».proof.Proof.Gen.KernelIdeal.Points
import proofs.«421098_j10737418240833_1_alg».proof.Proof.Gen.KernelIdeal.Frame
import proofs.«421098_j10737418240833_1_alg».proof.Proof.Gen.ReferenceIdeal
import proofs.«421098_j10737418240833_1_alg».proof.Proof.Gen.ReferenceIdeal.Run
import proofs.«421098_j10737418240833_1_alg».proof.Proof.Gen.Pre_finite_inputs
import proofs.«421098_j10737418240833_1_alg».proof.Proof.RunValue
import proofs.«421098_j10737418240833_1_alg».proof.Proof.KernelChain
import proofs.«421098_j10737418240833_1_alg».proof.Proof.RefNet
import proofs.«421098_j10737418240833_1_alg».proof.Proof.SrcRange
import Idealize.ShloMosaic.Adequacy
import Idealize.ShloMosaic.Init

noncomputable section

namespace Cert.Proof

open Idealize.ShloMosaic Idealize.SL.Sem Cert.Kernel

/-- The two programs state the same dimension numbers and shape relations for the network's host operations. -/
theorem sig_eq : Cert.ReferenceIdeal.Net.netSig = Cert.KernelIdeal.Chain.netSig := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Under the precondition every source id of the kernel's launch contents is in [-100000, 100000). -/
theorem src_in_range (m : (ℓ : Loc Cert.KernelIdeal.nD Cert.KernelIdeal.τ Cert.KernelIdeal.sig) → Buf (Elt Ideal) ℓ)
    (hpre : Cert.Pre_KernelIdeal m) (c : Dev Cert.KernelIdeal.nD) (e : Cert.Gin.SE.Idx) :
    -100000 ≤ (Cert.Gin.srcIds Cert.KernelIdeal.Chain.netSig (m ((c.tc : Thread Cert.KernelIdeal.nD Cert.KernelIdeal.τ).loc Cert.KernelIdeal.main_arg1)) e).toInt
      ∧ (Cert.Gin.srcIds Cert.KernelIdeal.Chain.netSig (m ((c.tc : Thread Cert.KernelIdeal.nD Cert.KernelIdeal.τ).loc Cert.KernelIdeal.main_arg1)) e).toInt < 100000 :=
  Cert.Pre_finite_inputs.Range.src_range (F := Ideal) _ _ _ _ _ _ _ _ _ _ _ _ _ _ _ _ _ (hpre c) e

/-- The network is a function of its seventeen arguments. -/
theorem net_congr (R : Cert.Gin.Sig)
    {x x' : FVec Ideal Cert.Gin.SN .f32} {ei ei' : IVec Cert.Gin.SPair 32} {bt bt' : IVec Cert.Gin.SNv 32}
    {w10 w10' : FVec Ideal Cert.Gin.SW .f32} {b10 b10' : FVec Ideal Cert.Gin.SB .f32} {w20 w20' : FVec Ideal Cert.Gin.SW .f32} {b20 b20' : FVec Ideal Cert.Gin.SB .f32}
    {w11 w11' : FVec Ideal Cert.Gin.SW .f32} {b11 b11' : FVec Ideal Cert.Gin.SB .f32} {w21 w21' : FVec Ideal Cert.Gin.SW .f32} {b21 b21' : FVec Ideal Cert.Gin.SB .f32}
    {w12 w12' : FVec Ideal Cert.Gin.SW .f32} {b12 b12' : FVec Ideal Cert.Gin.SB .f32} {w22 w22' : FVec Ideal Cert.Gin.SW .f32} {b22 b22' : FVec Ideal Cert.Gin.SB .f32}
    {lw lw' : FVec Ideal Cert.Gin.SLW .f32} {lb lb' : FVec Ideal Cert.Gin.SLB .f32}
    (h0 : x' = x) (h1 : ei' = ei) (h2 : bt' = bt) (h3 : w10' = w10) (h4 : b10' = b10) (h5 : w20' = w20) (h6 : b20' = b20) (h7 : w11' = w11) (h8 : b11' = b11)
    (h9 : w21' = w21) (h10 : b21' = b21) (h11 : w12' = w12) (h12 : b12' = b12) (h13 : w22' = w22) (h14 : b22' = b22) (h15 : lw' = lw) (h16 : lb' = lb) :
    Cert.Gin.net R x' ei' bt' w10' b10' w20' b20' w11' b11' w21' b21' w12' b12' w22' b22' lw' lb'
      = Cert.Gin.net R x ei bt w10 b10 w20 b20 w11 b11 w21 b21 w12 b12 w22 b22 lw lb := by
  subst h0 h1 h2 h3 h4 h5 h6 h7 h8 h9 h10 h11 h12 h13 h14 h15 h16
  rfl

/-- At the ideal instance the kernel's result buffer ends at the network of its launch contents, the reference's at the
    network of its own, and the launch contents agree. -/
theorem algebraic : Cert.algebraic_KernelIdeal_ReferenceIdeal := by
  intro m ρ m' ρ' hpre hagree
  refine ⟨fun c => Cert.Gin.net Cert.KernelIdeal.Chain.netSig
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Chain.result m ρ (src_in_range m hpre) c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.Net.res_eq m' c, sig_eq]
    exact net_congr _ h0 h1 h2 h3 h4 h5 h6 h7 h8 h9 h10 h11 h12 h13 h14 h15 h16

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
